-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1]⟩ ⟨2, ![2048, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Kernel.lean ====
abbrev S1024x512 : Shape := ⟨2, ![1024, 512]⟩
abbrev S1024x1 : Shape := ⟨2, ![1024, 1]⟩
abbrev S8x128 : Shape := ⟨2, ![8, 128]⟩
abbrev S_ : Shape := ⟨0, ![]⟩
abbrev S1024 : Shape := ⟨1, ![1024]⟩
abbrev S8x1x128 : Shape := ⟨3, ![8, 1, 128]⟩
abbrev S8x128x128 : Shape := ⟨3, ![8, 128, 128]⟩
abbrev S1024x128 : Shape := ⟨2, ![1024, 128]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S1024x1, .f32⟩
  | .local _ .vmem, ⟨0, _⟩ => ⟨S1024x512, .f32⟩
  | .local _ .vmem, ⟨1, _⟩ => ⟨S1024x1, .f32⟩
  | .local _ .vmem, ⟨2, _⟩ => ⟨S8x128, .f32⟩
  | .local _ .vmem, ⟨3, _⟩ => ⟨S8x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v19 : BitVec 32 := Scalar.muli v2 c2_i32_10
  let v20 : BitVec 32 := Scalar.addi c0_i32_11 v19
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_12 : BitVec 32 := 1#32
  let v21 : BitVec 32 := Scalar.muli v6 c1_i32_12
  let v22 : BitVec 32 := Scalar.addi v20 v21
  v22.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S8x128 : S1024.ShapeCasts S8x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S8x128_S8x1x128 : S8x128.ShapeCasts S8x1x128
  shapeCasts_S8x1x128_S8x1x128 : S8x1x128.ShapeCasts S8x1x128
  broadcasts_S8x1x128_S8x128x128 : S8x1x128.Broadcasts S8x128x128
  shapeCasts_S8x128x128_S1024x128 : S8x128x128.ShapeCasts S1024x128
  iota_S1024x128_d0_w32 : S1024x128.Iotas .tc 32 [0]
  iota_S1024x128_d1_w32 : S1024x128.Iotas .tc 32 [1]
  broadcasts_S1024x128_S1024x128 : S1024x128.Broadcasts S1024x128
  reduces_S1024x128_S1024 : S1024x128.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  hcc0_scratch2 : 2 + S_.numel ≤ 4
  hcc0_scratch3 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch2 : DmaSems sig S_ := SemArray.consecutive 2 S_ hcc0_scratch2
abbrev cc0_scratch3 : DmaSems sig S_ := SemArray.consecutive 3 S_ hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S_ : Shape := ⟨0, ![]⟩
abbrev S2048 : Shape := ⟨1, ![2048]⟩
abbrev S2048x1 : Shape := ⟨2, ![2048, 1]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S_, .f32⟩
  | .hbm, ⟨2, _⟩ => ⟨S2048, .f32⟩
  | .hbm, ⟨3, _⟩ => ⟨S2048x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)

variable [Facts₀]

class Facts : Prop extends Facts₀ where

variable [Facts]
-- ==== Proof.Kernel.Peer.lean ====
/-
  The 2 × 2 mesh's row partner. Device `c` sits at mesh coordinates (c / 2, c % 2); the kernel addresses the device
  in its own mesh row at the other column, (c / 2, 1 - c % 2), whose logical id is 2 · (c / 2) + 1 - c % 2. The map
  is an involution without fixed points, and both of the kernel's `device_id` chains compute it.
-/
import proofs.«900933_g7700000000000934_dist_max_ax1_xy_m1024_n512_v7x_xy2x2_bf16_1_alg».proof.Proof.Gen.Kernel

noncomputable section

namespace Cert.Kernel.Coll

open Cert.Kernel Cert.Kernel.Gen
open Idealize.ShloMosaic

/-- The device in `c`'s mesh row at the other column. -/
def peer (c : Dev nD) : Dev nD := ⟨(2 * (c.val / 2) + 1) - (c.val % 2), by have h : c.val < 4 := c.isLt; show _ < 4; omega⟩

theorem peer_peer (c : Dev nD) : peer (peer c) = c := by revert c; decide
theorem peer_ne (c : Dev nD) : peer c ≠ c := by revert c; decide
theorem peer_val (c : Dev nD) : (peer c).val = (2 * (c.val / 2) + 1) - (c.val % 2) := rfl

/-- The partner shares the mesh row and has the other column. -/
theorem peer_row (c : Dev nD) : (peer c).val / 2 = c.val / 2 := by revert c; decide
theorem peer_col (c : Dev nD) : (peer c).val % 2 = 1 - c.val % 2 := by revert c; decide

/-- The signal's and the transfer's `device_id` chains both name the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

/-- The partner map as a permutation of the devices. -/
def swap : Dev nD ≃ Dev nD := ⟨peer, peer, peer_peer, peer_peer⟩

end Cert.Kernel.Coll

end
-- ==== Proof.Kernel.Sched.lean ====
/-
  The kernel's protocol under the rounds discipline.

  Each device `c` meets one other device, its row partner `peer c`, on three semaphores of its own:
  * its BARRIER cell (the runtime's barrier semaphore of collective id 0, not scoped to the launch): one unit, signalled
    by the partner on entering the kernel, which hands over the partner's landing buffer — so that `c` may copy into it;
  * its RECEIVE cell: the credit of one 8 × 128 block, paid by the partner's copy into `c`'s landing buffer, which hands
    `c` that buffer holding the partner's row maxima;
  * its SEND cell: the same credit, paid by `c`'s own copy once its source is read, which hands back the half share of
    the source `c` lent the copy (the other half stays with `c`, which reads the source while the copy is in flight).
  One round, one duty a cell. What a device owes at launch is its signal and its copy onto the partner's cells; a
  device waits on its barrier still owing the copy, so receive cells sit above barrier cells in the order of levels.
-/
import proofs.«900933_g7700000000000934_dist_max_ax1_xy_m1024_n512_v7x_xy2x2_bf16_1_alg».proof.Proof.Kernel.Peer
import proofs.«900933_g7700000000000934_dist_max_ax1_xy_m1024_n512_v7x_xy2x2_bf16_1_alg».proof.Proof.Gen.Kernel.Skeleton
import proofs.«900933_g7700000000000934_dist_max_ax1_xy_m1024_n512_v7x_xy2x2_bf16_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds algebra beside the protocol's own -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The memrefs and the cells -/

/-- The staged input block, the staged result block, the row maxima (the copy's source) and the landing buffer. -/
abbrev xM : Memref sig .tc .vmem S1024x512 .f32 := Memref.whole cc0_stg0_0
abbrev oM : Memref sig .tc .vmem S1024x1 .f32 := Memref.whole cc0_stg1_0
abbrev pM : Memref sig .tc .vmem S8x128 .f32 := Memref.whole cc0_scratch0
abbrev rM : Memref sig .tc .vmem S8x128 .f32 := Memref.whole cc0_scratch1

abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores, as the launch indexes them: send, receive; -/
abbrev osem : Fin 2 → SemLoc sig := fun | 0 => .dma sendS.sem | 1 => .dma recvS.sem
/-- all three of the protocol's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one 8 × 128 block. -/
abbrev N : ℕ := (rM : Memref sig .tc .vmem S8x128 .f32).view.dmaCredit
theorem N_pos : 0 < N := View.dmaCredit_pos _ (by decide)

/-! ## Contents -/

/-- Device `c`'s staged input: its block of the argument array as launched. -/
def xin (c : Dev nD) : (cc0_stg0_0 : Ref sig .tc).ty.Contents (Elt F) :=
  (win0_0.blk (0 : Fin 1)).view.read (Elt F) (m ((c : Thread nD τ).loc main_arg0))

/-- Device `c`'s row maxima over its own 512 columns, as an 8 × 128 block. -/
def part (c : Dev nD) : (cc0_scratch0 : Ref sig .tc).ty.Contents (Elt F) := k0_pay2 (xin m c)

/-- What lands in device `c`'s landing buffer: its partner's row maxima. -/
def landed (c : Dev nD) : Buf (Elt F) ((rM : Memref sig .tc .vmem S8x128 .f32).view.loc (c : Thread nD τ)) := part m (peer c)

/-- The kernel's result on device `c`: the maximum of its own row maxima and its partner's, as a column. -/
def outAt (c : Dev nD) : (cc0_stg1_0 : Ref sig .tc).ty.Contents (Elt F) := k0_pay1 (part m c) (part m (peer c))

omit [FloatOps F] in
/-- A whole landing buffer overwritten by a whole source holds the source's contents. -/
theorem landed_eq (c : Dev nD) (fd : Buf (Elt F) ((rM : Memref sig .tc .vmem S8x128 .f32).view.loc (c : Thread nD τ))) (fs : (cc0_scratch0 : Ref sig .tc).ty.Contents (Elt F)) :
    (rM : Memref sig .tc .vmem S8x128 .f32).view.write (Elt F) fd ((pM : Memref sig .tc .vmem S8x128 .f32).view.read (Elt F) fs) Finset.univ = fs := by
  show (View.whole cc0_scratch1).write (Elt F) fd ((View.whole cc0_scratch0).read (Elt F) fs) Finset.univ = fs
  rw [View.read_whole]
  exact View.write_whole_univ _ _ _

/-- The landing buffer of device `c`, whole, at contents `f`; the source buffer at share `q`. -/
def rPts (c : Dev nD) (f : Buf (Elt F) ((rM : Memref sig .tc .vmem S8x128 .f32).view.loc (c : Thread nD τ))) : sProp 𝕄 :=
  (rM : Memref sig .tc .vmem S8x128 .f32).view.loc (c : Thread nD τ) ↦[(rM : Memref sig .tc .vmem S8x128 .f32).view.set]{fullShare} f
def pPts (q : PosShare TreeShare) (c : Dev nD) (f : Buf (Elt F) ((pM : Memref sig .tc .vmem S8x128 .f32).view.loc (c : Thread nD τ))) : sProp 𝕄 :=
  (pM : Memref sig .tc .vmem S8x128 .f32).view.loc (c : Thread nD τ) ↦[(pM : Memref sig .tc .vmem S8x128 .f32).view.set]{q} f

omit [FloatOps F] in
instance rPts_storable (c : Dev nD) (f) : BI.Storable (upEmb : UEmb _ 𝕄) (rPts (F := F) c f) := by unfold rPts; infer_instance
omit [FloatOps F] in
instance pPts_storable (q : PosShare TreeShare) (c : Dev nD) (f) : BI.Storable (upEmb : UEmb _ 𝕄) (pPts (F := F) q c f) := by unfold pPts; infer_instance

omit [FloatOps F] in
theorem r_set : (rM : Memref sig .tc .vmem S8x128 .f32).view.set = Finset.univ := View.set_whole _
omit [FloatOps F] in
theorem p_set : (pM : Memref sig .tc .vmem S8x128 .f32).view.set = Finset.univ := View.set_whole _
omit [FloatOps F] in
theorem rPts_eq (c : Dev nD) (f : Buf (Elt F) ((c : Thread nD τ).loc cc0_scratch1)) :
    rPts c f = (((c : Thread nD τ).loc cc0_scratch1) ↦{fullShare} f : sProp 𝕄) := by unfold rPts; rw [r_set]
omit [FloatOps F] in
theorem pPts_eq (q : PosShare TreeShare) (c : Dev nD) (f : Buf (Elt F) ((c : Thread nD τ).loc cc0_scratch0)) :
    pPts q c f = (((c : Thread nD τ).loc cc0_scratch0) ↦{q} f : sProp 𝕄) := by unfold pPts; rw [p_set]

omit [FloatOps F] in
/-- The source buffer's full share is its two halves. -/
theorem pPts_halves (c : Dev nD) (f : Buf (Elt F) ((pM : Memref sig .tc .vmem S8x128 .f32).view.loc (c : Thread nD τ))) :
    (pPts fullShare c f : sProp 𝕄) ⊣⊢ iprop(pPts fullShare.left c f ∗ pPts fullShare.right c f) := by
  unfold pPts; exact pointsTo_share (PosShare.mem_left_op_right fullShare)

/-! ## The schedule -/

/-- What the partner's signal hands `c`: the partner's landing buffer, at whatever it holds. -/
def barPay (c : Dev nD) : sProp 𝕄 := iprop(∃ f, rPts (peer c) f)
/-- What the partner's copy hands `c`: its landing buffer holding the partner's row maxima. -/
def recvPay (c : Dev nD) : sProp 𝕄 := rPts c (landed m c)
/-- What `c`'s own copy hands back once the source is read: the half share of the source it was lent. -/
def sendPay (c : Dev nD) : sProp 𝕄 := pPts fullShare.left c (part m c)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, round 0, one duty a cell: a barrier cell's of one unit, a send or receive cell's of the block's credit. -/
def sched : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m).duties (barCell c) 0 = {()} := by dsimp only [sched]; exact if_pos ⟨rfl, .inl ⟨rfl, rfl⟩⟩
theorem duties_send : (sched (F := F) m).duties (sendCell c) 0 = {()} := by dsimp only [sched]; exact if_pos ⟨rfl, .inr ⟨rfl, .inl rfl⟩⟩
theorem duties_recv : (sched (F := F) m).duties (recvCell c) 0 = {()} := by dsimp only [sched]; exact if_pos ⟨rfl, .inr ⟨rfl, .inr rfl⟩⟩
theorem duties_later (g : GSem nD τ sig) : ∀ r, 1 ≤ r → (sched (F := F) m).duties g r = ∅ :=
  fun r hr => by dsimp only [sched]; rw [if_neg fun h => by omega]

theorem amount_bar (d : Unit) : (sched (F := F) m).amount (barCell c) 0 d = 1 := by dsimp only [sched]; exact if_pos rfl
theorem amount_send (d : Unit) : (sched (F := F) m).amount (sendCell c) 0 d = N := by dsimp only [sched]; exact if_neg send_ne_bar
theorem amount_recv (d : Unit) : (sched (F := F) m).amount (recvCell c) 0 d = N := by dsimp only [sched]; exact if_neg recv_ne_bar

theorem expect_bar : (sched (F := F) m).expect (barCell c) 0 = 1 := by
  unfold Schedule.expect Schedule.amountOf; rw [duties_bar, Finset.sum_singleton, amount_bar]
theorem expect_send : (sched (F := F) m).expect (sendCell c) 0 = N := by
  unfold Schedule.expect Schedule.amountOf; rw [duties_send, Finset.sum_singleton, amount_send]
theorem expect_recv : (sched (F := F) m).expect (recvCell c) 0 = N := by
  unfold Schedule.expect Schedule.amountOf; rw [duties_recv, Finset.sum_singleton, amount_recv]

theorem payload_bar (d : Unit) : (sched (F := F) m).payload (barCell c) 0 d = barPay c := by dsimp only [sched]; rw [if_pos rfl]
theorem payload_send (d : Unit) : (sched (F := F) m).payload (sendCell c) 0 d = sendPay m c := by
  dsimp only [sched]; rw [if_neg send_ne_bar, if_neg send_ne_recv, if_pos rfl]
theorem payload_recv (d : Unit) : (sched (F := F) m).payload (recvCell c) 0 d = recvPay m c := by
  dsimp only [sched]; rw [if_neg recv_ne_bar, if_pos rfl]

/-- The rest of each cell's round, nothing taken: its one duty's payload. -/
theorem rest_bar : bigSep ((sched (F := F) m).duties (barCell c) 0 \ ∅) (fun d => (sched (F := F) m).payload (barCell c) 0 d) = barPay c := by
  rw [Finset.sdiff_empty, duties_bar, bigSep_singleton, payload_bar]
theorem rest_send : bigSep ((sched (F := F) m).duties (sendCell c) 0 \ ∅) (fun d => (sched (F := F) m).payload (sendCell c) 0 d) = sendPay m c := by
  rw [Finset.sdiff_empty, duties_send, bigSep_singleton, payload_send]
theorem rest_recv : bigSep ((sched (F := F) m).duties (recvCell c) 0 \ ∅) (fun d => (sched (F := F) m).payload (recvCell c) 0 d) = recvPay m c := by
  rw [Finset.sdiff_empty, duties_recv, bigSep_singleton, payload_recv]

end Sched

/-! ## What each device owes at launch; the levels -/

/-- Device `c` owes its partner's receive cell the block's credit (its copy) and its partner's barrier cell one unit
    (its signal) — summed so that the signal, which comes first, peels the last summand. -/
def O₁ (c : Dev nD) : CellTallies nD τ sig Unit := tallyAt (recvCell (peer c)) () N
def O₀ (c : Dev nD) : CellTallies nD τ sig Unit := O₁ c + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₁_pos {c : Dev nD} {g : GSem nD τ sig} {u : Unit} (h : 0 < O₁ c g u) : g = recvCell (peer c) := by
  unfold O₁ at h
  rw [tallyAt_apply] at h
  by_contra hn
  rw [if_neg (fun h' => hn h'.1)] at h
  exact Nat.lt_irrefl 0 h

theorem O₀_pos {c : Dev nD} {g : GSem nD τ sig} {u : Unit} (h : 0 < O₀ c g u) :
    g = recvCell (peer c) ∨ g = barCell (peer c) := by
  unfold O₀ O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A staging cell or the send cell sits below everything a device may owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its copy only: onto a receive cell, above its barrier cell. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rw [O₁_pos hg, L_tc]; exact Finset.mem_singleton_self _)
    (fun p hp => by rw [Finset.mem_singleton.mp hp]; dsimp only [lv]; rw [if_pos rfl])
    (fun g u hg => by rw [O₁_pos hg]; dsimp only [lv]; rw [if_neg recv_ne_bar, if_pos rfl]; decide)

end Cert.Kernel.Coll

end
-- ==== Proof.Kernel.Data.lean ====
/-
  The pipeline's proof data for the one grid point, and the ghost state a device's body starts from.

  Before the point a device holds: the invariants of the five cells it touches (its own three, its partner's barrier
  and receive cells), its positions at round 0 of its own cells, that round 0 of the cells it pays is reached, the
  tokens of the three duties it pays (its signal, its copy's landing, its copy's departure), the credit of its own
  barrier and receive cells, and its two scratch buffers at whatever they hold. After the point: the source buffer
  holding its row maxima, the landing buffer holding its partner's, and its two own semaphores back at zero.
-/
import proofs.«900933_g7700000000000934_dist_max_ax1_xy_m1024_n512_v7x_xy2x2_bf16_1_alg».proof.Proof.Kernel.Sched

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The cells' invariants device `c`'s body opens, under the names `K` the launch allocated them at: its own three, its
    partner's barrier cell (its signal) and its partner's receive cell (its copy). -/
def invs (K : Dev nD × Fin 3 → ℕ) (c : Dev nD) : sProp 𝕄 :=
  iprop(cellInv ER (sched m) (K (c, 0)) (barCell c) ∗ cellInv ER (sched m) (K (c, 1)) (sendCell c) ∗ cellInv ER (sched m) (K (c, 2)) (recvCell c)
    ∗ cellInv ER (sched m) (K (peer c, 0)) (barCell (peer c)) ∗ cellInv ER (sched m) (K (peer c, 2)) (recvCell (peer c)))

instance invs_persistent (K : Dev nD × Fin 3 → ℕ) (c : Dev nD) : BI.Persistent (invs m K c) := by unfold invs; infer_instance

/-- The protocol's ghost state device `c` starts from. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0
    ∗ dutyTok ER (barCell (peer c)) 0 () ∗ dutyTok ER (recvCell (peer c)) 0 () ∗ dutyTok ER (sendCell c) 0 ())

/-- What device `c`'s body starts from besides its scratch buffers: the ghost state at some names, the credit of its
    barrier cell (one unit) and of its receive cell (one block), and the level facts. -/
def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ (∃ f, pPts fullShare c f) ∗ ∃ f, rPts c f)
/-- After the point (the barrier cell is the runtime's: nothing of it to hand back). -/
def Φ₁ (c : Dev nD) : sProp 𝕄 := iprop(pPts fullShare c (part m c) ∗ rPts c (landed m c) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xin m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
/-- The one grid point. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer, whole, holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.Kernel.Coll

end
-- ==== Proof.Kernel.Body.lean ====
/-
  One device's body, stepped once at a symbolic device `c`.

  The device signals its partner's barrier (handing over its own landing buffer), takes the row maxima of its block
  into the source buffer, waits for its partner's signal (which brings the partner's landing buffer), copies the
  source into that buffer lending the copy HALF of the source's share — it reads the source again while the copy is
  in flight —, waits for its partner's copy to land, stores the maximum of the two blocks of row maxima as a column,
  and waits for its own copy to have read the source, when the lent half comes back.
-/
import proofs.«900933_g7700000000000934_dist_max_ax1_xy_m1024_n512_v7x_xy2x2_bf16_1_alg».proof.Proof.Kernel.Data

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The schedule's tables with each payload spelt as the points-to it is

  Where a payload of the partner's cell names the partner's partner, it is stated at the device itself. -/

theorem payload_bar_raw (c : Dev nD) (d : Unit) :
    (sched (F := F) m).payload (barCell c) 0 d = iprop(∃ f, (rM.view.loc (peer c : Thread nD τ) ↦[rM.view.set]{fullShare} f)) := by
  rw [payload_bar]; rfl
theorem payload_bar_peer_raw (c : Dev nD) (d : Unit) :
    (sched (F := F) m).payload (barCell (peer c)) 0 d = iprop(∃ f, (rM.view.loc (c : Thread nD τ) ↦[rM.view.set]{fullShare} f)) := by
  rw [payload_bar]
  exact congrArg (fun x : Dev nD => (iprop(∃ f, rPts x f) : sProp 𝕄)) (peer_peer c)
theorem payload_recv_raw (c : Dev nD) (d : Unit) :
    (sched (F := F) m).payload (recvCell c) 0 d = (rM.view.loc (c : Thread nD τ) ↦[rM.view.set]{fullShare} part m (peer c)) := by
  rw [payload_recv]; rfl
theorem payload_recv_peer_raw (c : Dev nD) (d : Unit) :
    (sched (F := F) m).payload (recvCell (peer c)) 0 d = (rM.view.loc (peer c : Thread nD τ) ↦[rM.view.set]{fullShare} part m c) := by
  rw [payload_recv]
  exact congrArg (fun x : Dev nD => (rPts (peer c) (part m x) : sProp 𝕄)) (peer_peer c)
theorem payload_send_raw (c : Dev nD) (d : Unit) :
    (sched (F := F) m).payload (sendCell c) 0 d = (pM.view.loc (c : Thread nD τ) ↦[pM.view.set]{fullShare.left} part m c) := by
  rw [payload_send]; rfl

attribute [local sl_rounds] duties_bar duties_send duties_recv amount_bar amount_send amount_recv expect_bar expect_send expect_recv
  payload_bar_raw payload_recv_raw payload_send_raw
attribute [local sl_rounds high] payload_bar_peer_raw payload_recv_peer_raw
attribute [local sl_canon] dev1_eq dev2_eq

/-! ## The body -/

omit [FloatOps F] in
theorem hz : (![0, 0] : Fin 2 → Nat) = fun _ => 0 := funext fun a => by fin_cases a <;> rfl

/-- The whole-block rectangles of the three buffer shapes. -/
abbrev rX : Rect S1024x512 := Rect.unit (s := S1024x512) ![0, 0] S1024x512.size inb_S1024x512_S1024x512_0_0
abbrev rP : Rect S8x128 := Rect.unit (s := S8x128) ![0, 0] S8x128.size inb_S8x128_S8x128_0_0
abbrev rO : Rect S1024x1 := Rect.unit (s := S1024x1) ![0, 0] S1024x1.size inb_S1024x1_S1024x1_0_0

omit [FloatOps F] in
/-- A load of a whole buffer through its whole-block rectangle reads the buffer's contents. -/
theorem read_x (f : (cc0_stg0_0 : Ref sig .tc).ty.Contents (Elt F)) : xM.view.readAt (Elt F) rX.toLoadRect f = f :=
  Memref.readAt_unit_zero (Elt F) cc0_stg0_0 hz _ f
omit [FloatOps F] in
theorem read_p (f : (cc0_scratch0 : Ref sig .tc).ty.Contents (Elt F)) : pM.view.readAt (Elt F) rP.toLoadRect f = f :=
  Memref.readAt_unit_zero (Elt F) cc0_scratch0 hz _ f
omit [FloatOps F] in
theorem read_r (f : (cc0_scratch1 : Ref sig .tc).ty.Contents (Elt F)) : rM.view.readAt (Elt F) rP.toLoadRect f = f :=
  Memref.readAt_unit_zero (Elt F) cc0_scratch1 hz _ f
omit [FloatOps F] in
/-- A store of a whole block over a whole buffer leaves the stored block. -/
theorem write_p (f w : (cc0_scratch0 : Ref sig .tc).ty.Contents (Elt F)) : pM.view.writes (Elt F) f [⟨rP, w⟩] = w := by
  rw [View.writes_singleton]; exact Memref.write_access_unit_zero_univ (Elt F) cc0_scratch0 hz _ f w
omit [FloatOps F] in
theorem write_o (f w : (cc0_stg1_0 : Ref sig .tc).ty.Contents (Elt F)) : oM.view.writes (Elt F) f [⟨rO, w⟩] = w := by
  rw [View.writes_singleton]; exact Memref.write_access_unit_zero_univ (Elt F) cc0_stg1_0 hz _ f w

section Body

variable (K : Dev nD × Fin 3 → ℕ)

/-- What the body leaves: both scratch buffers at their final contents, the staged input as it was, the staged result
    at the result, the device's own send and receive semaphores back at zero (their cells closed), and nothing owed. -/
abbrev bodyEnd (c : Dev nD) : sProp 𝕄 :=
  iprop((pM.view.loc (c : Thread nD τ) ↦[pM.view.set]{fullShare} part m c) ∗ (rM.view.loc (c : Thread nD τ) ↦[rM.view.set]{fullShare} part m (peer c))
    ∗ (xM.view.loc (c : Thread nD τ) ↦[xM.view.set]{fullShare} xin m c) ∗ (oM.view.loc (c : Thread nD τ) ↦[oM.view.set]{fullShare} outAt m c)
    ∗ semVal (sendCell c) 0 ∗ semVal (recvCell c) 0 ∗ ∃ W, owes (c : Thread nD τ) 0 W)

set_option maxHeartbeats 1600000 in
/-- The body from its cells' invariants, positions, tokens and credit, its four buffers and what it owes, to `bodyEnd`. -/
theorem run_body (c : Dev nD) (fp : Buf (Elt F) (pM.view.loc (c : Thread nD τ)))
    (fr : Buf (Elt F) (rM.view.loc (c : Thread nD τ)))
    (g1 : Buf (Elt F) (oM.view.loc (c : Thread nD τ)))
    (W : Waits sig Unit) (Kt : PUnit → sProp 𝕄)
    (hmw : (levAts L lv : sProp 𝕄) ⊢ MayWait (c : Thread nD τ) (.reg barS) () (tallyAt (recvCell (peer c)) () N)) :
    iprop(cellInv ER (sched m) (K (c, 0)) (barCell c) ∗ cellInv ER (sched m) (K (c, 1)) (sendCell c) ∗ cellInv ER (sched m) (K (c, 2)) (recvCell c)
        ∗ cellInv ER (sched m) (K (peer c, 0)) (barCell (peer c)) ∗ cellInv ER (sched m) (K (peer c, 2)) (recvCell (peer c))
        ∗ atPos ER (barCell c) 0 ∅ 0 ∗ atPos ER (sendCell c) 0 ∅ 0 ∗ atPos ER (recvCell c) 0 ∅ 0
        ∗ reached ER (barCell (peer c)) 0 ∗ reached ER (recvCell (peer c)) 0 ∗ reached ER (sendCell c) 0
        ∗ dutyTok ER (barCell (peer c)) 0 () ∗ dutyTok ER (recvCell (peer c)) 0 () ∗ dutyTok ER (sendCell c) 0 ()
        ∗ cred (tallyAt (barCell c) () 1) ∗ cred (tallyAt (recvCell c) () N) ∗ levAts L lv
        ∗ (pM.view.loc (c : Thread nD τ) ↦[pM.view.set]{fullShare} fp) ∗ (rM.view.loc (c : Thread nD τ) ↦[rM.view.set]{fullShare} fr)
        ∗ (xM.view.loc (c : Thread nD τ) ↦[xM.view.set]{fullShare} xin m c) ∗ (oM.view.loc (c : Thread nD τ) ↦[oM.view.set]{fullShare} g1)
        ∗ owes (c : Thread nD τ) (tallyAt (recvCell (peer c)) () N + tallyAt (barCell (peer c)) () 1) W
        ∗ (bodyEnd m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  iintro ⟨#HIbar, #HIsnd, #HIrcv, #HIbarP, #HIrcvP, HatB, HatS, HatV, #HrBP, #HrVP, #HrS, HtBP, HtVP, HtS, HcB, HcV, #Hlev, Hp, Hr, Hx, Hout, HO, Hk⟩
  -- the signal, the loads and the store, the wait for the partner's signal
  sl_exec
  -- the source buffer now holds the device's row maxima
  rw [read_x, write_p (F := F) fp (k0_pay2 (xin m c)), show k0_pay2 (xin m c) = part m c from rfl]
  -- half of it is lent to the copy
  ihave Hh := (pointsTo_share (PosShare.mem_left_op_right fullShare)).1 $$ Hp
  icases Hh with ⟨HpL, HpR⟩
  -- the copy, the wait for the partner's copy, the loads and the store, the wait for the copy's departure
  sl_exec (disch := simp only [dev2_eq])
  -- the staged result holds the maximum of the two blocks of row maxima
  sl_unfold_run_names
  rw [read_p, read_r, write_o (F := F) g1 (k0_pay1 (part m c) (part m (peer c))),
    show k0_pay1 (part m c) (part m (peer c)) = outAt m c from rfl]
  -- the lent half is back: the source is whole again
  ihave Hp := (pointsTo_share (PosShare.mem_left_op_right fullShare)).2 $$ [HatS_pay1 HpR]
  · isplitl [HatS_pay1]; · iexact HatS_pay1
    iexact HpR
  -- the device's own send and receive cells close: their counters are the device's again, at zero
  rw [wp_ret]
  imod (Rounds.cell_close ER (sched m) (Set.mem_univ (K (c, 1))) (fun h => h) (R := 1) (duties_later m (sendCell c))) $$ [HatS] with HzS
  · isplitr; · iexact HIsnd
    iexact HatS
  imod (Rounds.cell_close ER (sched m) (Set.mem_univ (K (c, 2))) (fun h => h) (R := 1) (duties_later m (recvCell c))) $$ [HatV] with HzV
  · isplitr; · iexact HIrcv
    iexact HatV
  imodintro
  iapply Hk
  isplitl [Hp]; · iexact Hp
  isplitl [HatV_pay1]; · iexact HatV_pay1
  isplitl [Hx]; · iexact Hx
  isplitl [Hout]; · iexact Hout
  isplitl [HzS]; · iexact HzS
  isplitl [HzV]; · iexact HzV
  iexists _; iexact HO

end Body

/-- info: 'Cert.Kernel.Coll.run_body' depends on axioms: [propext, Classical.choice, Quot.sound] -/
#guard_msgs in #print axioms run_body

end Cert.Kernel.Coll

end
-- ==== Proof.Kernel.Oblig.lean ====
/-
  The body obligation: what the pipeline hands a device's body at the one grid point — the ghost state at some names,
  the scratch buffers at whatever they hold, the staged input holding the device's block — is what the stepped body
  starts from, and what the body leaves is what the pipeline wants back.
-/
import proofs.«900933_g7700000000000934_dist_max_ax1_xy_m1024_n512_v7x_xy2x2_bf16_1_alg».proof.Proof.Kernel.Body

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- The buffers as points-tos through their memrefs' views. -/
theorem pPts_def (q : PosShare TreeShare) (c : Dev nD) (f : Buf (Elt F) (pM.view.loc (c : Thread nD τ))) :
    pPts q c f = ((pM.view.loc (c : Thread nD τ) ↦[pM.view.set]{q} f) : sProp 𝕄) := rfl
omit [FloatOps F] in
theorem rPts_def (c : Dev nD) (f : Buf (Elt F) (rM.view.loc (c : Thread nD τ))) :
    rPts c f = ((rM.view.loc (c : Thread nD τ) ↦[rM.view.set]{fullShare} f) : sProp 𝕄) := rfl
/-- The landing buffer holding the partner's row maxima, as the proof data's invariant spells it. -/
theorem rPts_landed (c : Dev nD) : ((rM.view.loc (c : Thread nD τ) ↦[rM.view.set]{fullShare} part m (peer c)) : sProp 𝕄) = rPts c (landed m c) := rfl
omit [FloatOps F] in
/-- A staging buffer held whole is held through its memref's view. -/
theorem xStg_def (c : Dev nD) (f : Buf (Elt F) ((c : Thread nD τ).loc cc0_stg0_0)) :
    (((c : Thread nD τ).loc cc0_stg0_0) ↦{fullShare} f : sProp 𝕄) = (xM.view.loc (c : Thread nD τ) ↦[xM.view.set]{fullShare} f) := by
  rw [View.set_whole]
omit [FloatOps F] in
theorem oStg_def (c : Dev nD) (f : Buf (Elt F) ((c : Thread nD τ).loc cc0_stg1_0)) :
    (((c : Thread nD τ).loc cc0_stg1_0) ↦{fullShare} f : sProp 𝕄) = (oM.view.loc (c : Thread nD τ) ↦[oM.view.set]{fullShare} f) := by
  rw [View.set_whole]

/-- What the proof data says the body leaves in the two staging buffers: the input block as it was, the result. -/
theorem afterIn_eq (c : Dev nD) : (dats m 0 c).after (0 : Fin 2) t₀ = xin m c := by dsimp only [dats]
theorem afterOut_eq (c : Dev nD) : (dats m 0 c).after (1 : Fin 2) t₀ = outAt m c := by dsimp only [dats]

section Oblig

variable (K : Dev nD × Fin 3 → ℕ)

/-- What the pipeline hands the body at the point, with the ghost state at the names `K`. -/
def bodyPre (c : Dev nD) : sProp 𝕄 :=
  iprop((ghost m K c ∗ cred (tallyAt (barCell c) () 1) ∗ cred (tallyAt (recvCell c) () N) ∗ levAts L lv ∗ (∃ f, pPts fullShare c f) ∗ ∃ f, rPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- What it wants back. -/
def bodyPost (c : Dev nD) : sProp 𝕄 :=
  iprop(Φ₁ m c ∗ (dats m 0 c).owesAt () t₀.succ ∗ stg c cc0_stg0_0 ((dats m 0 c).after (0 : Fin 2) t₀) ∗ stg c cc0_stg1_0 ((dats m 0 c).after (1 : Fin 2) t₀))

set_option maxHeartbeats 800000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost invs
  iintro ⟨⟨⟨⟨⟨HIbar, HIsnd, HIrcv, HIbarP, HIrcvP⟩, HatB, HatS, HatV, HrBP, HrVP, HrS, HtBP, HtVP, HtS⟩, HcB, HcV, Hlev, ⟨%fp, Hp⟩, ⟨%fr, Hr⟩⟩,
    Ho, ⟨%d0, %g0, %hg0, Hx⟩, ⟨%d1, %g1, %hg1, Hout⟩⟩, Hk⟩
  have hx : g0 = xin m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  ihave Hx := (Entails.of_eq (xStg_def c (xin m c))) $$ Hx
  ihave Hout := (Entails.of_eq (oStg_def c g1)) $$ Hout
  ihave Hp := (Entails.of_eq (pPts_def fullShare c fp)) $$ Hp
  ihave Hr := (Entails.of_eq (rPts_def c fr)) $$ Hr
  iapply (run_body m K c fp fr g1 W Kt (mayWait_bar c))
  isplitl [HIbar]; · iexact HIbar
  isplitl [HIsnd]; · iexact HIsnd
  isplitl [HIrcv]; · iexact HIrcv
  isplitl [HIbarP]; · iexact HIbarP
  isplitl [HIrcvP]; · iexact HIrcvP
  isplitl [HatB]; · iexact HatB
  isplitl [HatS]; · iexact HatS
  isplitl [HatV]; · iexact HatV
  isplitl [HrBP]; · iexact HrBP
  isplitl [HrVP]; · iexact HrVP
  isplitl [HrS]; · iexact HrS
  isplitl [HtBP]; · iexact HtBP
  isplitl [HtVP]; · iexact HtVP
  isplitl [HtS]; · iexact HtS
  isplitl [HcB]; · iexact HcB
  isplitl [HcV]; · iexact HcV
  isplitl [Hlev]; · iexact Hlev
  isplitl [Hp]; · iexact Hp
  isplitl [Hr]; · iexact Hr
  isplitl [Hx]; · iexact Hx
  isplitl [Hout]; · iexact Hout
  isplitl [HO]; · iexact HO
  iintro ⟨Hp, Hr, Hx, Hout, HzS, HzV, ⟨%W', HO⟩⟩
  iapply Hk
  unfold bodyPost Φ₁ Dat.owesAt Pipeline.owesWithin
  rw [show (dats m 0 c).owed t₀.succ = 0 from rfl]
  ihave Hp := (Entails.of_eq (pPts_def fullShare c (part m c)).symm) $$ Hp
  ihave Hr := (Entails.of_eq (rPts_landed m c)) $$ Hr
  ihave Hx := (Entails.of_eq (xStg_def c (xin m c)).symm) $$ Hx
  ihave Hout := (Entails.of_eq (oStg_def c (outAt m c)).symm) $$ Hout
  isplitl [Hp Hr HzS HzV]
  · isplitl [Hp]; · iexact Hp
    isplitl [Hr]; · iexact Hr
    isplitl [HzS]; · iexact HzS
    iexact HzV
  isplitl [HO]
  · iexists W'
    isplitr; · ipureintro; exact fun _ _ => Or.inl trivial
    iexact HO
  isplitl [Hx]
  · iexists _; isplitr; · (ipureintro; exact (afterIn_eq m c).symm)
    iexact Hx
  iexists _; isplitr; · (ipureintro; exact (afterOut_eq m c).symm)
  iexact Hout

end Oblig

/-- What the pipeline hands the body, as the library states it. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m c)
  unfold bodyPre' Φ₀ start
  iintro ⟨⟨⟨⟨%K, Hg⟩, Hrest⟩, Hp, Hr⟩, Ho, Hx, Hout⟩
  iapply (sound_body m K c fun _ => bodyPost m c)
  unfold bodyPre
  isplitr []
  · isplitl [Hg Hrest Hp Hr]
    · isplitl [Hg]; · iexact Hg
      icases Hrest with ⟨H1, H2, H3⟩
      isplitl [H1]; · iexact H1
      isplitl [H2]; · iexact H2
      isplitl [H3]; · iexact H3
      isplitl [Hp]; · iexact Hp
      iexact Hr
    isplitl [Ho]; · iexact Ho
    isplitl [Hx] <;> iassumption
  · iintro H; iexact H

/-- info: 'Cert.Kernel.Coll.body_obligation' depends on axioms: [propext, Classical.choice, Quot.sound] -/
#guard_msgs in #print axioms body_obligation

end Cert.Kernel.Coll

end
-- ==== Proof.Kernel.Launch.lean ====
/-
  The launch: the protocol's ghost state dealt to the devices, the cells' invariants allocated for all devices at
  once (the barrier semaphore is not scoped to the launch, so its cell is shared), each device's launch credit, and
  the run of @main from the body obligation.
-/
import proofs.«900933_g7700000000000934_dist_max_ax1_xy_m1024_n512_v7x_xy2x2_bf16_1_alg».proof.Proof.Kernel.Data

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The launch element and what it deals each device -/

/-- The kernel's own two semaphores are scoped DMA semaphores that no staging buffer completes on. -/
theorem ownSemFacts : Pipeline.OwnSemFacts cfg0.spec osem := by decide

/-- Every window's array is held at the full share. -/
theorem share_eq (c : Dev nD) (w : Fin cfg0.W) : (dats m 0 c).share w = fullShare := by unfold Dat.share; split <;> rfl

/-- Distinct (device, semaphore) pairs are distinct cells. -/
theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- The protocol's cells: every device's barrier, send and receive cell. -/
def protoCells : Finset (GSem nD τ sig) := Finset.univ.map ⟨kcell, kcell_injective⟩

/-- Each such cell has one duty in round 0, so one token is minted per cell. -/
abbrev tokOf (ck : Dev nD × Fin 3) : GSem nD τ sig × ℕ × Unit := (kcell ck, 0, ())
theorem tokOf_injective : Function.Injective (tokOf : Dev nD × Fin 3 → GSem nD τ sig × ℕ × Unit) :=
  fun _ _ h => kcell_injective (congrArg Prod.fst h)
def protoToks : Finset (GSem nD τ sig × ℕ × Unit) := Finset.univ.map ⟨tokOf, tokOf_injective⟩

/-- The launch element: the staging cells' initial state beside the protocol cells'. -/
def u₀ : UU :=
  (initOf (Pipeline.cells cfgs cellOf_inj) (Pipeline.launchToks cfgs cellOf_inj), initOf protoCells protoToks)

/-- The duty tokens of device `c`'s own three cells. -/
def toks (c : Dev nD) : sProp 𝕄 :=
  iprop(dutyTok ER (barCell c) 0 () ∗ dutyTok ER (sendCell c) 0 () ∗ dutyTok ER (recvCell c) 0 ())

/-- What the launch element deals device `c`: its three cells' round states at counter zero, its positions at
    round 0 with that round reached, and its own cells' tokens. -/
def G (c : Dev nD) : sProp 𝕄 :=
  iprop((bigSep Finset.univ fun k : Fin 3 => roundState ER (sched m) (kcell (c, k)) 0)
    ∗ (bigSep Finset.univ fun k : Fin 3 => iprop(atPos ER (kcell (c, k)) 0 ∅ 0 ∗ reached ER (kcell (c, k)) 0)) ∗ toks c)

/-- What the global step turns it into: the ghost state the body starts from, at some names. -/
def G' (c : Dev nD) : sProp 𝕄 := iprop(∃ K, ghost m K c)

theorem bigSep_fin3 (Φ : Fin 3 → sProp 𝕄) : bigSep Finset.univ Φ = iprop(Φ 0 ∗ Φ 1 ∗ Φ 2) := bigSep_univ_eq_bigSepL [0, 1, 2] (by decide) (by decide) Φ

/-- The protocol half of the launch element funds every device's `G`. -/
theorem fund_cells : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 3 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin3]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores at zero are the send and the receive cell at zero; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the one semaphore not scoped to the launch is the barrier cell. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Together they are the three protocol cells of the device at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

/-- One device: its three counters at zero and round states close into the three cells' invariants, at some names. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent part once names are chosen: every protocol cell's invariant, and round 0 of every one reached. -/
def records (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (sched m) (K ck) (kcell ck) : sProp 𝕄)) ⊢ cellInv ER (sched m) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- The tokens device `c` pays with: its partner's barrier duty (its signal), its partner's receive duty (its copy
    landing) and its own send duty (its copy leaving). -/
def payToks (c : Dev nD) : sProp 𝕄 :=
  iprop(dutyTok ER (barCell (peer c)) 0 () ∗ dutyTok ER (recvCell (peer c)) 0 () ∗ dutyTok ER (sendCell c) 0 ())
/-- The part of the ghost state that is not persistent: the positions and those tokens. -/
def linear (c : Dev nD) : sProp 𝕄 :=
  iprop((atPos ER (barCell c) 0 ∅ 0 ∗ atPos ER (sendCell c) 0 ∅ 0 ∗ atPos ER (recvCell c) 0 ∅ 0) ∗ payToks c)

/-- From the records and its linear part a device assembles its ghost state. -/
theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtB, HtV, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitl [HtB]; · iexact HtB
  isplitl [HtV]; · iexact HtV
  iexact HtS

/-- The tokens change hands across each mesh row: a barrier token and a receive token go to the partner (the partner map
    is a permutation of the devices, so re-indexing by it loses nothing), a send token stays. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

/-- A persistent fact may be used under every summand. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices at once: the invariants' names gathered into one function, the tokens dealt across the rows, every
    device's ghost state assembled. -/
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (sched m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m) κ (kcell ck) : sProp 𝕄))) $$ HI
  icases HK with ⟨%K, #HI⟩
  ihave Htk := (toks_across (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: from every device's own and unscoped semaphores at zero and its `G`, every device's `G'`. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- Device `d` owes device `c`'s barrier cell one unit exactly when it is `c`'s partner; -/
theorem owed_bar (d c : Dev nD) : O₀ d (barCell c) () = if d = peer c then 1 else 0 := by
  unfold O₀ O₁
  rw [Pi.add_apply, Finsupp.add_apply, tallyAt_ne_cell (g := recvCell (peer d)) (g' := barCell c) (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [bar_eq_iff.mp h1, peer_peer])), if_neg h]

/-- and its receive cell the block's credit exactly then. -/
theorem owed_recv (d c : Dev nD) : O₀ d (recvCell c) () = if d = peer c then N else 0 := by
  unfold O₀ O₁
  rw [Pi.add_apply, Finsupp.add_apply, tallyAt_ne_cell (g := barCell (peer d)) (g' := recvCell c) (fun h => recv_ne_bar (congrArg Prod.snd h)), tallyAt_apply, Finsupp.zero_apply, Nat.add_zero]
  by_cases h : d = peer c
  · subst h; rw [peer_peer, if_pos ⟨rfl, rfl⟩, if_pos rfl]
  · rw [if_neg (fun ⟨h1, _⟩ => h (by rw [recv_eq_iff.mp h1, peer_peer])), if_neg h]

/-- Summed over the devices: a barrier cell is dealt one unit of credit, -/
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

/-- a receive cell the block's credit. -/
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (peer c) fun _ => N, if_pos (Finset.mem_univ _)]

/-- So a device's launch credit holds the two credit tokens its body starts from. -/
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ## The launch theorem's side conditions -/

/-- What the launch hands a device gives what its body starts from (nothing is kept aside). -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- With the two scratch buffers the region scopes, that is the invariant before the point; -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hp⟩, ⟨%g, Hr⟩⟩
  isplitl [Hs]; · iexact Hs
  isplitl [Hp]
  · iexists f; rw [pPts_eq]; iexact Hp
  · iexists g; rw [rPts_eq]; iexact Hr

/-- the invariant after the point hands back both scratch buffers and the two own semaphores at zero. -/
theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hp, Hr, HzS, HzV⟩
  isplitr; · iempintro
  isplitl [HzS HzV]
  · isplitl [HzS] <;> iassumption
  isplitl [Hp]
  · iexists (part m c); rw [← pPts_eq]; iexact Hp
  · iexists (landed m c); rw [← rPts_eq]; iexact Hr

/-- The staging cells' waits sit below everything a device may owe, before the point and after it. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What the run ends with: every window's array at the proof data's final contents. -/
def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- At the compiled mesh of four devices, from any memory with zero counters: if every device's body meets its
    obligation, every weakly fair execution of @main terminates with every window's array at its final contents. -/
theorem run_of_body (ρ : Dev nD → PrngReg)
    (hbody : ∀ c : Dev nD, BodyObligation (dats (F := F) m 0 c) (defs₀ (F := F)) 𝒱₀ () Set.univ) :
    θ_run defs (onTc (τ := τ) (main (F := F))) ⟨m, fun _ => 0, ρ⟩ (QC m) := by
  exact Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.Kernel.Coll.run_of_body' depends on axioms: [propext, Classical.choice, Quot.sound] -/
#guard_msgs in #print axioms run_of_body

end Cert.Kernel.Coll

end
-- ==== Proof.Kernel.Final.lean ====
/-
  The arrays after the run: the argument array is what it was, the result array holds the body's result, and the
  staged input block is the argument array itself (the block is the whole array).
-/
import proofs.«900933_g7700000000000934_dist_max_ax1_xy_m1024_n512_v7x_xy2x2_bf16_1_alg».proof.Proof.Kernel.Data

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The staged input is the device's argument array. -/
theorem xin_eq (c : Dev nD) : xin m c = m ((c : Thread nD τ).loc main_arg0) := by
  -- The window's block at the one grid point is the rectangle of the array's own sizes at block index 0, that is
  -- at offsets 0 · size = 0: the whole array, read as it stands.
  unfold xin
  exact Memref.read_access_unit_zero (Elt F) main_arg0 (funext fun a => Nat.zero_mul _) _ _

/-- The argument array after the run holds what it held. -/
theorem final_in (c : Dev nD) : (dats m 0 c).arrAt (0 : Fin 2) cfg0.N = m ((c : Thread nD τ).loc main_arg0) :=
  -- Window 0 is an input: no point writes it back, so after any number of points its array is as at entry.
  (dats m 0 c).arrAt_in (0 : Fin 2) rfl cfg0.N

/-- The one grid point is the last, and window 1 is an output: the point writes it back. -/
theorem flush_1 : (cfg0.win (1 : Fin 2)).flush t₀ = true := rfl

/-- What the proof data records for window 1 after the point is, by definition, the kernel's result. -/
theorem after_1 (c : Dev nD) : (dats m 0 c).after (1 : Fin 2) t₀ = outAt m c := by dsimp only [dats]

/-- Window 1's block is not cut at the array's end: its moved part is the block itself, whatever it holds
    (index for index the same function). -/
theorem cut_1 (X : (cfg0.win (1 : Fin 2)).block.Idx → Elt F (cfg0.win (1 : Fin 2)).elt) :
    (cfg0.win (1 : Fin 2)).cut (cfg0.grid.coords t₀) X = X := rfl

/-- The result array after the run holds the body's result. -/
theorem final_out (c : Dev nD) : (dats m 0 c).arrAt (1 : Fin 2) cfg0.N = outAt m c := by
  -- The grid has one point, and that point writes window 1 back: the array after it is the array at entry
  -- overwritten, on the block's rectangle, by what the body left in the staging buffer.
  have hN : (dats m 0 c).arrAt (1 : Fin 2) cfg0.N = (dats m 0 c).arrAt (1 : Fin 2) ((t₀ : Fin cfg0.N).val + 1) :=
    congrArg ((dats m 0 c).arrAt (1 : Fin 2)) cfg0_N
  rw [hN, Dat.arrAt_succ, if_pos flush_1]
  -- The block is the rectangle of the array's own sizes at offsets 0 · size = 0: the whole array, so the write
  -- replaces the contents by the payload,
  refine (Memref.write_access_unit_zero_univ (Elt F) main_v1 (funext fun a => Nat.zero_mul _) _ _ _).trans ?_
  -- and the payload is the moved part of what the body left: all of it, the kernel's result.
  show (cfg0.win (1 : Fin 2)).cut (cfg0.grid.coords t₀) ((dats m 0 c).after (1 : Fin 2) t₀) = outAt m c
  rw [after_1]
  exact cut_1 _

end Cert.Kernel.Coll

end
-- ==== Proof.Kernel.Run.lean ====
/-
  The run of @main on the four devices, with every array named: each device's result array ends holding the
  maximum of its own row maxima and its row partner's, as a column, and its argument array is unchanged.
-/
import proofs.«900933_g7700000000000934_dist_max_ax1_xy_m1024_n512_v7x_xy2x2_bf16_1_alg».proof.Proof.Kernel.Oblig
import proofs.«900933_g7700000000000934_dist_max_ax1_xy_m1024_n512_v7x_xy2x2_bf16_1_alg».proof.Proof.Kernel.Launch
import proofs.«900933_g7700000000000934_dist_max_ax1_xy_m1024_n512_v7x_xy2x2_bf16_1_alg».proof.Proof.Kernel.Final

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Every weakly fair execution of @main terminates with every window's array at its final contents. -/
theorem run_main (ρ : Dev nD → PrngReg) : θ_run defs (onTc (τ := τ) (main (F := F))) ⟨m, fun _ => 0, ρ⟩ (QC m) :=
  run_of_body m ρ (body_obligation m)

/-- The same run with the arrays read: the result is `outAt m c` — a pure term of the devices' argument arrays —
    and the argument array is as launched. -/
theorem run_named (ρ : Dev nD → PrngReg) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  (θ_run defs _ _).mono (fun r h c => ⟨(h c (1 : Fin 2)).trans (final_out m c), (h c (0 : Fin 2)).trans (final_in m c)⟩) (run_main m ρ)

/-- info: 'Cert.Kernel.Coll.run_named' depends on axioms: [propext, Classical.choice, Quot.sound] -/
#guard_msgs in #print axioms run_named

end Cert.Kernel.Coll

end
-- ==== Proof.KernelIdeal.Peer.lean ====
/-
  The 2 × 2 mesh's row partner. Device `c` sits at mesh coordinates (c / 2, c % 2); the kernel addresses the device
  in its own mesh row at the other column, (c / 2, 1 - c % 2), whose logical id is 2 · (c / 2) + 1 - c % 2. The map
  is an involution without fixed points, and both of the kernel's `device_id` chains compute it.
-/
import proofs.«900933_g7700000000000934_dist_max_ax1_xy_m1024_n512_v7x_xy2x2_bf16_1_alg».proof.Proof.Gen.KernelIdeal

noncomputable section

namespace Cert.KernelIdeal.Coll

open Cert.KernelIdeal Cert.KernelIdeal.Gen
open Idealize.ShloMosaic

/-- The device in `c`'s mesh row at the other column. -/
def peer (c : Dev nD) : Dev nD := ⟨(2 * (c.val / 2) + 1) - (c.val % 2), by have h : c.val < 4 := c.isLt; show _ < 4; omega⟩

theorem peer_peer (c : Dev nD) : peer (peer c) = c := by revert c; decide
theorem peer_ne (c : Dev nD) : peer c ≠ c := by revert c; decide
theorem peer_val (c : Dev nD) : (peer c).val = (2 * (c.val / 2) + 1) - (c.val % 2) := rfl

/-- The partner shares the mesh row and has the other column. -/
theorem peer_row (c : Dev nD) : (peer c).val / 2 = c.val / 2 := by revert c; decide
theorem peer_col (c : Dev nD) : (peer c).val % 2 = 1 - c.val % 2 := by revert c; decide

/-- The signal's and the transfer's `device_id` chains both name the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

/-- The partner map as a permutation of the devices. -/
def swap : Dev nD ≃ Dev nD := ⟨peer, peer, peer_peer, peer_peer⟩

end Cert.KernelIdeal.Coll

end
-- ==== Proof.KernelIdeal.Sched.lean ====
/-
  The kernel's protocol under the rounds discipline.

  Each device `c` meets one other device, its row partner `peer c`, on three semaphores of its own:
  * its BARRIER cell (the runtime's barrier semaphore of collective id 0, not scoped to the launch): one unit, signalled
    by the partner on entering the kernel, which hands over the partner's landing buffer — so that `c` may copy into it;
  * its RECEIVE cell: the credit of one 8 × 128 block, paid by the partner's copy into `c`'s landing buffer, which hands
    `c` that buffer holding the partner's row maxima;
  * its SEND cell: the same credit, paid by `c`'s own copy once its source is read, which hands back the half share of
    the source `c` lent the copy (the other half stays with `c`, which reads the source while the copy is in flight).
  One round, one duty a cell. What a device owes at launch is its signal and its copy onto the partner's cells; a
  device waits on its barrier still owing the copy, so receive cells sit above barrier cells in the order of levels.
-/
import proofs.«900933_g7700000000000934_dist_max_ax1_xy_m1024_n512_v7x_xy2x2_bf16_1_alg».proof.Proof.KernelIdeal.Peer
import proofs.«900933_g7700000000000934_dist_max_ax1_xy_m1024_n512_v7x_xy2x2_bf16_1_alg».proof.Proof.Gen.KernelIdeal.Skeleton
import proofs.«900933_g7700000000000934_dist_max_ax1_xy_m1024_n512_v7x_xy2x2_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds algebra beside the protocol's own -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The memrefs and the cells -/

/-- The staged input block, the staged result block, the row maxima (the copy's source) and the landing buffer. -/
abbrev xM : Memref sig .tc .vmem S1024x512 .f32 := Memref.whole cc0_stg0_0
abbrev oM : Memref sig .tc .vmem S1024x1 .f32 := Memref.whole cc0_stg1_0
abbrev pM : Memref sig .tc .vmem S8x128 .f32 := Memref.whole cc0_scratch0
abbrev rM : Memref sig .tc .vmem S8x128 .f32 := Memref.whole cc0_scratch1

abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores, as the launch indexes them: send, receive; -/
abbrev osem : Fin 2 → SemLoc sig := fun | 0 => .dma sendS.sem | 1 => .dma recvS.sem
/-- all three of the protocol's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one 8 × 128 block. -/
abbrev N : ℕ := (rM : Memref sig .tc .vmem S8x128 .f32).view.dmaCredit
theorem N_pos : 0 < N := View.dmaCredit_pos _ (by decide)

/-! ## Contents -/

/-- Device `c`'s staged input: its block of the argument array as launched. -/
def xin (c : Dev nD) : (cc0_stg0_0 : Ref sig .tc).ty.Contents (Elt F) :=
  (win0_0.blk (0 : Fin 1)).view.read (Elt F) (m ((c : Thread nD τ).loc main_arg0))

/-- Device `c`'s row maxima over its own 512 columns, as an 8 × 128 block. -/
def part (c : Dev nD) : (cc0_scratch0 : Ref sig .tc).ty.Contents (Elt F) := k0_pay2 (xin m c)

/-- What lands in device `c`'s landing buffer: its partner's row maxima. -/
def landed (c : Dev nD) : Buf (Elt F) ((rM : Memref sig .tc .vmem S8x128 .f32).view.loc (c : Thread nD τ)) := part m (peer c)

/-- The kernel's result on device `c`: the maximum of its own row maxima and its partner's, as a column. -/
def outAt (c : Dev nD) : (cc0_stg1_0 : Ref sig .tc).ty.Contents (Elt F) := k0_pay1 (part m c) (part m (peer c))

omit [FloatOps F] in
/-- A whole landing buffer overwritten by a whole source holds the source's contents. -/
theorem landed_eq (c : Dev nD) (fd : Buf (Elt F) ((rM : Memref sig .tc .vmem S8x128 .f32).view.loc (c : Thread nD τ))) (fs : (cc0_scratch0 : Ref sig .tc).ty.Contents (Elt F)) :
    (rM : Memref sig .tc .vmem S8x128 .f32).view.write (Elt F) fd ((pM : Memref sig .tc .vmem S8x128 .f32).view.read (Elt F) fs) Finset.univ = fs := by
  show (View.whole cc0_scratch1).write (Elt F) fd ((View.whole cc0_scratch0).read (Elt F) fs) Finset.univ = fs
  rw [View.read_whole]
  exact View.write_whole_univ _ _ _

/-- The landing buffer of device `c`, whole, at contents `f`; the source buffer at share `q`. -/
def rPts (c : Dev nD) (f : Buf (Elt F) ((rM : Memref sig .tc .vmem S8x128 .f32).view.loc (c : Thread nD τ))) : sProp 𝕄 :=
  (rM : Memref sig .tc .vmem S8x128 .f32).view.loc (c : Thread nD τ) ↦[(rM : Memref sig .tc .vmem S8x128 .f32).view.set]{fullShare} f
def pPts (q : PosShare TreeShare) (c : Dev nD) (f : Buf (Elt F) ((pM : Memref sig .tc .vmem S8x128 .f32).view.loc (c : Thread nD τ))) : sProp 𝕄 :=
  (pM : Memref sig .tc .vmem S8x128 .f32).view.loc (c : Thread nD τ) ↦[(pM : Memref sig .tc .vmem S8x128 .f32).view.set]{q} f

omit [FloatOps F] in
instance rPts_storable (c : Dev nD) (f) : BI.Storable (upEmb : UEmb _ 𝕄) (rPts (F := F) c f) := by unfold rPts; infer_instance
omit [FloatOps F] in
instance pPts_storable (q : PosShare TreeShare) (c : Dev nD) (f) : BI.Storable (upEmb : UEmb _ 𝕄) (pPts (F := F) q c f) := by unfold pPts; infer_instance

omit [FloatOps F] in
theorem r_set : (rM : Memref sig .tc .vmem S8x128 .f32).view.set = Finset.univ := View.set_whole _
omit [FloatOps F] in
theorem p_set : (pM : Memref sig .tc .vmem S8x128 .f32).view.set = Finset.univ := View.set_whole _
omit [FloatOps F] in
theorem rPts_eq (c : Dev nD) (f : Buf (Elt F) ((c : Thread nD τ).loc cc0_scratch1)) :
    rPts c f = (((c : Thread nD τ).loc cc0_scratch1) ↦{fullShare} f : sProp 𝕄) := by unfold rPts; rw [r_set]
omit [FloatOps F] in
theorem pPts_eq (q : PosShare TreeShare) (c : Dev nD) (f : Buf (Elt F) ((c : Thread nD τ).loc cc0_scratch0)) :
    pPts q c f = (((c : Thread nD τ).loc cc0_scratch0) ↦{q} f : sProp 𝕄) := by unfold pPts; rw [p_set]

omit [FloatOps F] in
/-- The source buffer's full share is its two halves. -/
theorem pPts_halves (c : Dev nD) (f : Buf (Elt F) ((pM : Memref sig .tc .vmem S8x128 .f32).view.loc (c : Thread nD τ))) :
    (pPts fullShare c f : sProp 𝕄) ⊣⊢ iprop(pPts fullShare.left c f ∗ pPts fullShare.right c f) := by
  unfold pPts; exact pointsTo_share (PosShare.mem_left_op_right fullShare)

/-! ## The schedule -/

/-- What the partner's signal hands `c`: the partner's landing buffer, at whatever it holds. -/
def barPay (c : Dev nD) : sProp 𝕄 := iprop(∃ f, rPts (peer c) f)
/-- What the partner's copy hands `c`: its landing buffer holding the partner's row maxima. -/
def recvPay (c : Dev nD) : sProp 𝕄 := rPts c (landed m c)
/-- What `c`'s own copy hands back once the source is read: the half share of the source it was lent. -/
def sendPay (c : Dev nD) : sProp 𝕄 := pPts fullShare.left c (part m c)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, round 0, one duty a cell: a barrier cell's of one unit, a send or receive cell's of the block's credit. -/
def sched : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m).duties (barCell c) 0 = {()} := by dsimp only [sched]; exact if_pos ⟨rfl, .inl ⟨rfl, rfl⟩⟩
theorem duties_send : (sched (F := F) m).duties (sendCell c) 0 = {()} := by dsimp only [sched]; exact if_pos ⟨rfl, .inr ⟨rfl, .inl rfl⟩⟩
theorem duties_recv : (sched (F := F) m).duties (recvCell c) 0 = {()} := by dsimp only [sched]; exact if_pos ⟨rfl, .inr ⟨rfl, .inr rfl⟩⟩
theorem duties_later (g : GSem nD τ sig) : ∀ r, 1 ≤ r → (sched (F := F) m).duties g r = ∅ :=
  fun r hr => by dsimp only [sched]; rw [if_neg fun h => by omega]

theorem amount_bar (d : Unit) : (sched (F := F) m).amount (barCell c) 0 d = 1 := by dsimp only [sched]; exact if_pos rfl
theorem amount_send (d : Unit) : (sched (F := F) m).amount (sendCell c) 0 d = N := by dsimp only [sched]; exact if_neg send_ne_bar
theorem amount_recv (d : Unit) : (sched (F := F) m).amount (recvCell c) 0 d = N := by dsimp only [sched]; exact if_neg recv_ne_bar

theorem expect_bar : (sched (F := F) m).expect (barCell c) 0 = 1 := by
  unfold Schedule.expect Schedule.amountOf; rw [duties_bar, Finset.sum_singleton, amount_bar]
theorem expect_send : (sched (F := F) m).expect (sendCell c) 0 = N := by
  unfold Schedule.expect Schedule.amountOf; rw [duties_send, Finset.sum_singleton, amount_send]
theorem expect_recv : (sched (F := F) m).expect (recvCell c) 0 = N := by
  unfold Schedule.expect Schedule.amountOf; rw [duties_recv, Finset.sum_singleton, amount_recv]

theorem payload_bar (d : Unit) : (sched (F := F) m).payload (barCell c) 0 d = barPay c := by dsimp only [sched]; rw [if_pos rfl]
theorem payload_send (d : Unit) : (sched (F := F) m).payload (sendCell c) 0 d = sendPay m c := by
  dsimp only [sched]; rw [if_neg send_ne_bar, if_neg send_ne_recv, if_pos rfl]
theorem payload_recv (d : Unit) : (sched (F := F) m).payload (recvCell c) 0 d = recvPay m c := by
  dsimp only [sched]; rw [if_neg recv_ne_bar, if_pos rfl]

/-- The rest of each cell's round, nothing taken: its one duty's payload. -/
theorem rest_bar : bigSep ((sched (F := F) m).duties (barCell c) 0 \ ∅) (fun d => (sched (F := F) m).payload (barCell c) 0 d) = barPay c := by
  rw [Finset.sdiff_empty, duties_bar, bigSep_singleton, payload_bar]
theorem rest_send : bigSep ((sched (F := F) m).duties (sendCell c) 0 \ ∅) (fun d => (sched (F := F) m).payload (sendCell c) 0 d) = sendPay m c := by
  rw [Finset.sdiff_empty, duties_send, bigSep_singleton, payload_send]
theorem rest_recv : bigSep ((sched (F := F) m).duties (recvCell c) 0 \ ∅) (fun d => (sched (F := F) m).payload (recvCell c) 0 d) = recvPay m c := by
  rw [Finset.sdiff_empty, duties_recv, bigSep_singleton, payload_recv]

end Sched

/-! ## What each device owes at launch; the levels -/

/-- Device `c` owes its partner's receive cell the block's credit (its copy) and its partner's barrier cell one unit
    (its signal) — summed so that the signal, which comes first, peels the last summand. -/
def O₁ (c : Dev nD) : CellTallies nD τ sig Unit := tallyAt (recvCell (peer c)) () N
def O₀ (c : Dev nD) : CellTallies nD τ sig Unit := O₁ c + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₁_pos {c : Dev nD} {g : GSem nD τ sig} {u : Unit} (h : 0 < O₁ c g u) : g = recvCell (peer c) := by
  unfold O₁ at h
  rw [tallyAt_apply] at h
  by_contra hn
  rw [if_neg (fun h' => hn h'.1)] at h
  exact Nat.lt_irrefl 0 h

theorem O₀_pos {c : Dev nD} {g : GSem nD τ sig} {u : Unit} (h : 0 < O₀ c g u) :
    g = recvCell (peer c) ∨ g = barCell (peer c) := by
  unfold O₀ O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A staging cell or the send cell sits below everything a device may owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its copy only: onto a receive cell, above its barrier cell. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rw [O₁_pos hg, L_tc]; exact Finset.mem_singleton_self _)
    (fun p hp => by rw [Finset.mem_singleton.mp hp]; dsimp only [lv]; rw [if_pos rfl])
    (fun g u hg => by rw [O₁_pos hg]; dsimp only [lv]; rw [if_neg recv_ne_bar, if_pos rfl]; decide)

end Cert.KernelIdeal.Coll

end
-- ==== Proof.KernelIdeal.Data.lean ====
/-
  The pipeline's proof data for the one grid point, and the ghost state a device's body starts from.

  Before the point a device holds: the invariants of the five cells it touches (its own three, its partner's barrier
  and receive cells), its positions at round 0 of its own cells, that round 0 of the cells it pays is reached, the
  tokens of the three duties it pays (its signal, its copy's landing, its copy's departure), the credit of its own
  barrier and receive cells, and its two scratch buffers at whatever they hold. After the point: the source buffer
  holding its row maxima, the landing buffer holding its partner's, and its two own semaphores back at zero.
-/
import proofs.«900933_g7700000000000934_dist_max_ax1_xy_m1024_n512_v7x_xy2x2_bf16_1_alg».proof.Proof.KernelIdeal.Sched

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The cells' invariants device `c`'s body opens, under the names `K` the launch allocated them at: its own three, its
    partner's barrier cell (its signal) and its partner's receive cell (its copy). -/
def invs (K : Dev nD × Fin 3 → ℕ) (c : Dev nD) : sProp 𝕄 :=
  iprop(cellInv ER (sched m) (K (c, 0)) (barCell c) ∗ cellInv ER (sched m) (K (c, 1)) (sendCell c) ∗ cellInv ER (sched m) (K (c, 2)) (recvCell c)
    ∗ cellInv ER (sched m) (K (peer c, 0)) (barCell (peer c)) ∗ cellInv ER (sched m) (K (peer c, 2)) (recvCell (peer c)))

instance invs_persistent (K : Dev nD × Fin 3 → ℕ) (c : Dev nD) : BI.Persistent (invs m K c) := by unfold invs; infer_instance

/-- The protocol's ghost state device `c` starts from. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0
    ∗ dutyTok ER (barCell (peer c)) 0 () ∗ dutyTok ER (recvCell (peer c)) 0 () ∗ dutyTok ER (sendCell c) 0 ())

/-- What device `c`'s body starts from besides its scratch buffers: the ghost state at some names, the credit of its
    barrier cell (one unit) and of its receive cell (one block), and the level facts. -/
def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ (∃ f, pPts fullShare c f) ∗ ∃ f, rPts c f)
/-- After the point (the barrier cell is the runtime's: nothing of it to hand back). -/
def Φ₁ (c : Dev nD) : sProp 𝕄 := iprop(pPts fullShare c (part m c) ∗ rPts c (landed m c) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xin m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
/-- The one grid point. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer, whole, holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelIdeal.Coll

end
-- ==== Proof.KernelIdeal.Body.lean ====
/-
  One device's body, stepped once at a symbolic device `c`.

  The device signals its partner's barrier (handing over its own landing buffer), takes the row maxima of its block
  into the source buffer, waits for its partner's signal (which brings the partner's landing buffer), copies the
  source into that buffer lending the copy HALF of the source's share — it reads the source again while the copy is
  in flight —, waits for its partner's copy to land, stores the maximum of the two blocks of row maxima as a column,
  and waits for its own copy to have read the source, when the lent half comes back.
-/
import proofs.«900933_g7700000000000934_dist_max_ax1_xy_m1024_n512_v7x_xy2x2_bf16_1_alg».proof.Proof.KernelIdeal.Data

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The schedule's tables with each payload spelt as the points-to it is

  Where a payload of the partner's cell names the partner's partner, it is stated at the device itself. -/

theorem payload_bar_raw (c : Dev nD) (d : Unit) :
    (sched (F := F) m).payload (barCell c) 0 d = iprop(∃ f, (rM.view.loc (peer c : Thread nD τ) ↦[rM.view.set]{fullShare} f)) := by
  rw [payload_bar]; rfl
theorem payload_bar_peer_raw (c : Dev nD) (d : Unit) :
    (sched (F := F) m).payload (barCell (peer c)) 0 d = iprop(∃ f, (rM.view.loc (c : Thread nD τ) ↦[rM.view.set]{fullShare} f)) := by
  rw [payload_bar]
  exact congrArg (fun x : Dev nD => (iprop(∃ f, rPts x f) : sProp 𝕄)) (peer_peer c)
theorem payload_recv_raw (c : Dev nD) (d : Unit) :
    (sched (F := F) m).payload (recvCell c) 0 d = (rM.view.loc (c : Thread nD τ) ↦[rM.view.set]{fullShare} part m (peer c)) := by
  rw [payload_recv]; rfl
theorem payload_recv_peer_raw (c : Dev nD) (d : Unit) :
    (sched (F := F) m).payload (recvCell (peer c)) 0 d = (rM.view.loc (peer c : Thread nD τ) ↦[rM.view.set]{fullShare} part m c) := by
  rw [payload_recv]
  exact congrArg (fun x : Dev nD => (rPts (peer c) (part m x) : sProp 𝕄)) (peer_peer c)
theorem payload_send_raw (c : Dev nD) (d : Unit) :
    (sched (F := F) m).payload (sendCell c) 0 d = (pM.view.loc (c : Thread nD τ) ↦[pM.view.set]{fullShare.left} part m c) := by
  rw [payload_send]; rfl

attribute [local sl_rounds] duties_bar duties_send duties_recv amount_bar amount_send amount_recv expect_bar expect_send expect_recv
  payload_bar_raw payload_recv_raw payload_send_raw
attribute [local sl_rounds high] payload_bar_peer_raw payload_recv_peer_raw
attribute [local sl_canon] dev1_eq dev2_eq

/-! ## The body -/

omit [FloatOps F] in
theorem hz : (![0, 0] : Fin 2 → Nat) = fun _ => 0 := funext fun a => by fin_cases a <;> rfl

/-- The whole-block rectangles of the three buffer shapes. -/
abbrev rX : Rect S1024x512 := Rect.unit (s := S1024x512) ![0, 0] S1024x512.size inb_S1024x512_S1024x512_0_0
abbrev rP : Rect S8x128 := Rect.unit (s := S8x128) ![0, 0] S8x128.size inb_S8x128_S8x128_0_0
abbrev rO : Rect S1024x1 := Rect.unit (s := S1024x1) ![0, 0] S1024x1.size inb_S1024x1_S1024x1_0_0

omit [FloatOps F] in
/-- A load of a whole buffer through its whole-block rectangle reads the buffer's contents. -/
theorem read_x (f : (cc0_stg0_0 : Ref sig .tc).ty.Contents (Elt F)) : xM.view.readAt (Elt F) rX.toLoadRect f = f :=
  Memref.readAt_unit_zero (Elt F) cc0_stg0_0 hz _ f
omit [FloatOps F] in
theorem read_p (f : (cc0_scratch0 : Ref sig .tc).ty.Contents (Elt F)) : pM.view.readAt (Elt F) rP.toLoadRect f = f :=
  Memref.readAt_unit_zero (Elt F) cc0_scratch0 hz _ f
omit [FloatOps F] in
theorem read_r (f : (cc0_scratch1 : Ref sig .tc).ty.Contents (Elt F)) : rM.view.readAt (Elt F) rP.toLoadRect f = f :=
  Memref.readAt_unit_zero (Elt F) cc0_scratch1 hz _ f
omit [FloatOps F] in
/-- A store of a whole block over a whole buffer leaves the stored block. -/
theorem write_p (f w : (cc0_scratch0 : Ref sig .tc).ty.Contents (Elt F)) : pM.view.writes (Elt F) f [⟨rP, w⟩] = w := by
  rw [View.writes_singleton]; exact Memref.write_access_unit_zero_univ (Elt F) cc0_scratch0 hz _ f w
omit [FloatOps F] in
theorem write_o (f w : (cc0_stg1_0 : Ref sig .tc).ty.Contents (Elt F)) : oM.view.writes (Elt F) f [⟨rO, w⟩] = w := by
  rw [View.writes_singleton]; exact Memref.write_access_unit_zero_univ (Elt F) cc0_stg1_0 hz _ f w

section Body

variable (K : Dev nD × Fin 3 → ℕ)

/-- What the body leaves: both scratch buffers at their final contents, the staged input as it was, the staged result
    at the result, the device's own send and receive semaphores back at zero (their cells closed), and nothing owed. -/
abbrev bodyEnd (c : Dev nD) : sProp 𝕄 :=
  iprop((pM.view.loc (c : Thread nD τ) ↦[pM.view.set]{fullShare} part m c) ∗ (rM.view.loc (c : Thread nD τ) ↦[rM.view.set]{fullShare} part m (peer c))
    ∗ (xM.view.loc (c : Thread nD τ) ↦[xM.view.set]{fullShare} xin m c) ∗ (oM.view.loc (c : Thread nD τ) ↦[oM.view.set]{fullShare} outAt m c)
    ∗ semVal (sendCell c) 0 ∗ semVal (recvCell c) 0 ∗ ∃ W, owes (c : Thread nD τ) 0 W)

set_option maxHeartbeats 1600000 in
/-- The body from its cells' invariants, positions, tokens and credit, its four buffers and what it owes, to `bodyEnd`. -/
theorem run_body (c : Dev nD) (fp : Buf (Elt F) (pM.view.loc (c : Thread nD τ)))
    (fr : Buf (Elt F) (rM.view.loc (c : Thread nD τ)))
    (g1 : Buf (Elt F) (oM.view.loc (c : Thread nD τ)))
    (W : Waits sig Unit) (Kt : PUnit → sProp 𝕄)
    (hmw : (levAts L lv : sProp 𝕄) ⊢ MayWait (c : Thread nD τ) (.reg barS) () (tallyAt (recvCell (peer c)) () N)) :
    iprop(cellInv ER (sched m) (K (c, 0)) (barCell c) ∗ cellInv ER (sched m) (K (c, 1)) (sendCell c) ∗ cellInv ER (sched m) (K (c, 2)) (recvCell c)
        ∗ cellInv ER (sched m) (K (peer c, 0)) (barCell (peer c)) ∗ cellInv ER (sched m) (K (peer c, 2)) (recvCell (peer c))
        ∗ atPos ER (barCell c) 0 ∅ 0 ∗ atPos ER (sendCell c) 0 ∅ 0 ∗ atPos ER (recvCell c) 0 ∅ 0
        ∗ reached ER (barCell (peer c)) 0 ∗ reached ER (recvCell (peer c)) 0 ∗ reached ER (sendCell c) 0
        ∗ dutyTok ER (barCell (peer c)) 0 () ∗ dutyTok ER (recvCell (peer c)) 0 () ∗ dutyTok ER (sendCell c) 0 ()
        ∗ cred (tallyAt (barCell c) () 1) ∗ cred (tallyAt (recvCell c) () N) ∗ levAts L lv
        ∗ (pM.view.loc (c : Thread nD τ) ↦[pM.view.set]{fullShare} fp) ∗ (rM.view.loc (c : Thread nD τ) ↦[rM.view.set]{fullShare} fr)
        ∗ (xM.view.loc (c : Thread nD τ) ↦[xM.view.set]{fullShare} xin m c) ∗ (oM.view.loc (c : Thread nD τ) ↦[oM.view.set]{fullShare} g1)
        ∗ owes (c : Thread nD τ) (tallyAt (recvCell (peer c)) () N + tallyAt (barCell (peer c)) () 1) W
        ∗ (bodyEnd m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  iintro ⟨#HIbar, #HIsnd, #HIrcv, #HIbarP, #HIrcvP, HatB, HatS, HatV, #HrBP, #HrVP, #HrS, HtBP, HtVP, HtS, HcB, HcV, #Hlev, Hp, Hr, Hx, Hout, HO, Hk⟩
  -- the signal, the loads and the store, the wait for the partner's signal
  sl_exec
  -- the source buffer now holds the device's row maxima
  rw [read_x, write_p (F := F) fp (k0_pay2 (xin m c)), show k0_pay2 (xin m c) = part m c from rfl]
  -- half of it is lent to the copy
  ihave Hh := (pointsTo_share (PosShare.mem_left_op_right fullShare)).1 $$ Hp
  icases Hh with ⟨HpL, HpR⟩
  -- the copy, the wait for the partner's copy, the loads and the store, the wait for the copy's departure
  sl_exec (disch := simp only [dev2_eq])
  -- the staged result holds the maximum of the two blocks of row maxima
  sl_unfold_run_names
  rw [read_p, read_r, write_o (F := F) g1 (k0_pay1 (part m c) (part m (peer c))),
    show k0_pay1 (part m c) (part m (peer c)) = outAt m c from rfl]
  -- the lent half is back: the source is whole again
  ihave Hp := (pointsTo_share (PosShare.mem_left_op_right fullShare)).2 $$ [HatS_pay1 HpR]
  · isplitl [HatS_pay1]; · iexact HatS_pay1
    iexact HpR
  -- the device's own send and receive cells close: their counters are the device's again, at zero
  rw [wp_ret]
  imod (Rounds.cell_close ER (sched m) (Set.mem_univ (K (c, 1))) (fun h => h) (R := 1) (duties_later m (sendCell c))) $$ [HatS] with HzS
  · isplitr; · iexact HIsnd
    iexact HatS
  imod (Rounds.cell_close ER (sched m) (Set.mem_univ (K (c, 2))) (fun h => h) (R := 1) (duties_later m (recvCell c))) $$ [HatV] with HzV
  · isplitr; · iexact HIrcv
    iexact HatV
  imodintro
  iapply Hk
  isplitl [Hp]; · iexact Hp
  isplitl [HatV_pay1]; · iexact HatV_pay1
  isplitl [Hx]; · iexact Hx
  isplitl [Hout]; · iexact Hout
  isplitl [HzS]; · iexact HzS
  isplitl [HzV]; · iexact HzV
  iexists _; iexact HO

end Body

/-- info: 'Cert.KernelIdeal.Coll.run_body' depends on axioms: [propext, Classical.choice, Quot.sound] -/
#guard_msgs in #print axioms run_body

end Cert.KernelIdeal.Coll

end
-- ==== Proof.KernelIdeal.Oblig.lean ====
/-
  The body obligation: what the pipeline hands a device's body at the one grid point — the ghost state at some names,
  the scratch buffers at whatever they hold, the staged input holding the device's block — is what the stepped body
  starts from, and what the body leaves is what the pipeline wants back.
-/
import proofs.«900933_g7700000000000934_dist_max_ax1_xy_m1024_n512_v7x_xy2x2_bf16_1_alg».proof.Proof.KernelIdeal.Body

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- The buffers as points-tos through their memrefs' views. -/
theorem pPts_def (q : PosShare TreeShare) (c : Dev nD) (f : Buf (Elt F) (pM.view.loc (c : Thread nD τ))) :
    pPts q c f = ((pM.view.loc (c : Thread nD τ) ↦[pM.view.set]{q} f) : sProp 𝕄) := rfl
omit [FloatOps F] in
theorem rPts_def (c : Dev nD) (f : Buf (Elt F) (rM.view.loc (c : Thread nD τ))) :
    rPts c f = ((rM.view.loc (c : Thread nD τ) ↦[rM.view.set]{fullShare} f) : sProp 𝕄) := rfl
/-- The landing buffer holding the partner's row maxima, as the proof data's invariant spells it. -/
theorem rPts_landed (c : Dev nD) : ((rM.view.loc (c : Thread nD τ) ↦[rM.view.set]{fullShare} part m (peer c)) : sProp 𝕄) = rPts c (landed m c) := rfl
omit [FloatOps F] in
/-- A staging buffer held whole is held through its memref's view. -/
theorem xStg_def (c : Dev nD) (f : Buf (Elt F) ((c : Thread nD τ).loc cc0_stg0_0)) :
    (((c : Thread nD τ).loc cc0_stg0_0) ↦{fullShare} f : sProp 𝕄) = (xM.view.loc (c : Thread nD τ) ↦[xM.view.set]{fullShare} f) := by
  rw [View.set_whole]
omit [FloatOps F] in
theorem oStg_def (c : Dev nD) (f : Buf (Elt F) ((c : Thread nD τ).loc cc0_stg1_0)) :
    (((c : Thread nD τ).loc cc0_stg1_0) ↦{fullShare} f : sProp 𝕄) = (oM.view.loc (c : Thread nD τ) ↦[oM.view.set]{fullShare} f) := by
  rw [View.set_whole]

/-- What the proof data says the body leaves in the two staging buffers: the input block as it was, the result. -/
theorem afterIn_eq (c : Dev nD) : (dats m 0 c).after (0 : Fin 2) t₀ = xin m c := by dsimp only [dats]
theorem afterOut_eq (c : Dev nD) : (dats m 0 c).after (1 : Fin 2) t₀ = outAt m c := by dsimp only [dats]

section Oblig

variable (K : Dev nD × Fin 3 → ℕ)

/-- What the pipeline hands the body at the point, with the ghost state at the names `K`. -/
def bodyPre (c : Dev nD) : sProp 𝕄 :=
  iprop((ghost m K c ∗ cred (tallyAt (barCell c) () 1) ∗ cred (tallyAt (recvCell c) () N) ∗ levAts L lv ∗ (∃ f, pPts fullShare c f) ∗ ∃ f, rPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- What it wants back. -/
def bodyPost (c : Dev nD) : sProp 𝕄 :=
  iprop(Φ₁ m c ∗ (dats m 0 c).owesAt () t₀.succ ∗ stg c cc0_stg0_0 ((dats m 0 c).after (0 : Fin 2) t₀) ∗ stg c cc0_stg1_0 ((dats m 0 c).after (1 : Fin 2) t₀))

set_option maxHeartbeats 800000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost invs
  iintro ⟨⟨⟨⟨⟨HIbar, HIsnd, HIrcv, HIbarP, HIrcvP⟩, HatB, HatS, HatV, HrBP, HrVP, HrS, HtBP, HtVP, HtS⟩, HcB, HcV, Hlev, ⟨%fp, Hp⟩, ⟨%fr, Hr⟩⟩,
    Ho, ⟨%d0, %g0, %hg0, Hx⟩, ⟨%d1, %g1, %hg1, Hout⟩⟩, Hk⟩
  have hx : g0 = xin m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  ihave Hx := (Entails.of_eq (xStg_def c (xin m c))) $$ Hx
  ihave Hout := (Entails.of_eq (oStg_def c g1)) $$ Hout
  ihave Hp := (Entails.of_eq (pPts_def fullShare c fp)) $$ Hp
  ihave Hr := (Entails.of_eq (rPts_def c fr)) $$ Hr
  iapply (run_body m K c fp fr g1 W Kt (mayWait_bar c))
  isplitl [HIbar]; · iexact HIbar
  isplitl [HIsnd]; · iexact HIsnd
  isplitl [HIrcv]; · iexact HIrcv
  isplitl [HIbarP]; · iexact HIbarP
  isplitl [HIrcvP]; · iexact HIrcvP
  isplitl [HatB]; · iexact HatB
  isplitl [HatS]; · iexact HatS
  isplitl [HatV]; · iexact HatV
  isplitl [HrBP]; · iexact HrBP
  isplitl [HrVP]; · iexact HrVP
  isplitl [HrS]; · iexact HrS
  isplitl [HtBP]; · iexact HtBP
  isplitl [HtVP]; · iexact HtVP
  isplitl [HtS]; · iexact HtS
  isplitl [HcB]; · iexact HcB
  isplitl [HcV]; · iexact HcV
  isplitl [Hlev]; · iexact Hlev
  isplitl [Hp]; · iexact Hp
  isplitl [Hr]; · iexact Hr
  isplitl [Hx]; · iexact Hx
  isplitl [Hout]; · iexact Hout
  isplitl [HO]; · iexact HO
  iintro ⟨Hp, Hr, Hx, Hout, HzS, HzV, ⟨%W', HO⟩⟩
  iapply Hk
  unfold bodyPost Φ₁ Dat.owesAt Pipeline.owesWithin
  rw [show (dats m 0 c).owed t₀.succ = 0 from rfl]
  ihave Hp := (Entails.of_eq (pPts_def fullShare c (part m c)).symm) $$ Hp
  ihave Hr := (Entails.of_eq (rPts_landed m c)) $$ Hr
  ihave Hx := (Entails.of_eq (xStg_def c (xin m c)).symm) $$ Hx
  ihave Hout := (Entails.of_eq (oStg_def c (outAt m c)).symm) $$ Hout
  isplitl [Hp Hr HzS HzV]
  · isplitl [Hp]; · iexact Hp
    isplitl [Hr]; · iexact Hr
    isplitl [HzS]; · iexact HzS
    iexact HzV
  isplitl [HO]
  · iexists W'
    isplitr; · ipureintro; exact fun _ _ => Or.inl trivial
    iexact HO
  isplitl [Hx]
  · iexists _; isplitr; · (ipureintro; exact (afterIn_eq m c).symm)
    iexact Hx
  iexists _; isplitr; · (ipureintro; exact (afterOut_eq m c).symm)
  iexact Hout

end Oblig

/-- What the pipeline hands the body, as the library states it. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m c)
  unfold bodyPre' Φ₀ start
  iintro ⟨⟨⟨⟨%K, Hg⟩, Hrest⟩, Hp, Hr⟩, Ho, Hx, Hout⟩
  iapply (sound_body m K c fun _ => bodyPost m c)
  unfold bodyPre
  isplitr []
  · isplitl [Hg Hrest Hp Hr]
    · isplitl [Hg]; · iexact Hg
      icases Hrest with ⟨H1, H2, H3⟩
      isplitl [H1]; · iexact H1
      isplitl [H2]; · iexact H2
      isplitl [H3]; · iexact H3
      isplitl [Hp]; · iexact Hp
      iexact Hr
    isplitl [Ho]; · iexact Ho
    isplitl [Hx] <;> iassumption
  · iintro H; iexact H

/-- info: 'Cert.KernelIdeal.Coll.body_obligation' depends on axioms: [propext, Classical.choice, Quot.sound] -/
#guard_msgs in #print axioms body_obligation

end Cert.KernelIdeal.Coll

end
-- ==== Proof.KernelIdeal.Launch.lean ====
/-
  The launch: the protocol's ghost state dealt to the devices, the cells' invariants allocated for all devices at
  once (the barrier semaphore is not scoped to the launch, so its cell is shared), each device's launch credit, and
  the run of @main from the body obligation.
-/
import proofs.«900933_g7700000000000934_dist_max_ax1_xy_m1024_n512_v7x_xy2x2_bf16_1_alg».proof.Proof.KernelIdeal.Data

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The launch element and what it deals each device -/

/-- The kernel's own two semaphores are scoped DMA semaphores that no staging buffer completes on. -/
theorem ownSemFacts : Pipeline.OwnSemFacts cfg0.spec osem := by decide

/-- Every window's array is held at the full share. -/
theorem share_eq (c : Dev nD) (w : Fin cfg0.W) : (dats m 0 c).share w = fullShare := by unfold Dat.share; split <;> rfl

/-- Distinct (device, semaphore) pairs are distinct cells. -/
theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- The protocol's cells: every device's barrier, send and receive cell. -/
def protoCells : Finset (GSem nD τ sig) := Finset.univ.map ⟨kcell, kcell_injective⟩

/-- Each such cell has one duty in round 0, so one token is minted per cell. -/
abbrev tokOf (ck : Dev nD × Fin 3) : GSem nD τ sig × ℕ × Unit := (kcell ck, 0, ())
theorem tokOf_injective : Function.Injective (tokOf : Dev nD × Fin 3 → GSem nD τ sig × ℕ × Unit) :=
  fun _ _ h => kcell_injective (congrArg Prod.fst h)
def protoToks : Finset (GSem nD τ sig × ℕ × Unit) := Finset.univ.map ⟨tokOf, tokOf_injective⟩

/-- The launch element: the staging cells' initial state beside the protocol cells'. -/
def u₀ : UU :=
  (initOf (Pipeline.cells cfgs cellOf_inj) (Pipeline.launchToks cfgs cellOf_inj), initOf protoCells protoToks)

/-- The duty tokens of device `c`'s own three cells. -/
def toks (c : Dev nD) : sProp 𝕄 :=
  iprop(dutyTok ER (barCell c) 0 () ∗ dutyTok ER (sendCell c) 0 () ∗ dutyTok ER (recvCell c) 0 ())

/-- What the launch element deals device `c`: its three cells' round states at counter zero, its positions at
    round 0 with that round reached, and its own cells' tokens. -/
def G (c : Dev nD) : sProp 𝕄 :=
  iprop((bigSep Finset.univ fun k : Fin 3 => roundState ER (sched m) (kcell (c, k)) 0)
    ∗ (bigSep Finset.univ fun k : Fin 3 => iprop(atPos ER (kcell (c, k)) 0 ∅ 0 ∗ reached ER (kcell (c, k)) 0)) ∗ toks c)

/-- What the global step turns it into: the ghost state the body starts from, at some names. -/
def G' (c : Dev nD) : sProp 𝕄 := iprop(∃ K, ghost m K c)

theorem bigSep_fin3 (Φ : Fin 3 → sProp 𝕄) : bigSep Finset.univ Φ = iprop(Φ 0 ∗ Φ 1 ∗ Φ 2) := bigSep_univ_eq_bigSepL [0, 1, 2] (by decide) (by decide) Φ

/-- The protocol half of the launch element funds every device's `G`. -/
theorem fund_cells : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 3 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin3]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores at zero are the send and the receive cell at zero; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the one semaphore not scoped to the launch is the barrier cell. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Together they are the three protocol cells of the device at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

/-- One device: its three counters at zero and round states close into the three cells' invariants, at some names. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent part once names are chosen: every protocol cell's invariant, and round 0 of every one reached. -/
def records (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (sched m) (K ck) (kcell ck) : sProp 𝕄)) ⊢ cellInv ER (sched m) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- The tokens device `c` pays with: its partner's barrier duty (its signal), its partner's receive duty (its copy
    landing) and its own send duty (its copy leaving). -/
def payToks (c : Dev nD) : sProp 𝕄 :=
  iprop(dutyTok ER (barCell (peer c)) 0 () ∗ dutyTok ER (recvCell (peer c)) 0 () ∗ dutyTok ER (sendCell c) 0 ())
/-- The part of the ghost state that is not persistent: the positions and those tokens. -/
def linear (c : Dev nD) : sProp 𝕄 :=
  iprop((atPos ER (barCell c) 0 ∅ 0 ∗ atPos ER (sendCell c) 0 ∅ 0 ∗ atPos ER (recvCell c) 0 ∅ 0) ∗ payToks c)

/-- From the records and its linear part a device assembles its ghost state. -/
theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtB, HtV, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitl [HtB]; · iexact HtB
  isplitl [HtV]; · iexact HtV
  iexact HtS

/-- The tokens change hands across each mesh row: a barrier token and a receive token go to the partner (the partner map
    is a permutation of the devices, so re-indexing by it loses nothing), a send token stays. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

/-- A persistent fact may be used under every summand. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices at once: the invariants' names gathered into one function, the tokens dealt across the rows, every
    device's ghost state assembled. -/
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (sched m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m) κ (kcell ck) : sProp 𝕄))) $$ HI
  icases HK with ⟨%K, #HI⟩
  ihave Htk := (toks_across (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: from every device's own and unscoped semaphores at zero and its `G`, every device's `G'`. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- Device `d` owes device `c`'s barrier cell one unit exactly when it is `c`'s partner; -/
theorem owed_bar (d c : Dev nD) : O₀ d (barCell c) () = if d = peer c then 1 else 0 := by
  unfold O₀ O₁
  rw [Pi.add_apply, Finsupp.add_apply, tallyAt_ne_cell (g := recvCell (peer d)) (g' := barCell c) (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [bar_eq_iff.mp h1, peer_peer])), if_neg h]

/-- and its receive cell the block's credit exactly then. -/
theorem owed_recv (d c : Dev nD) : O₀ d (recvCell c) () = if d = peer c then N else 0 := by
  unfold O₀ O₁
  rw [Pi.add_apply, Finsupp.add_apply, tallyAt_ne_cell (g := barCell (peer d)) (g' := recvCell c) (fun h => recv_ne_bar (congrArg Prod.snd h)), tallyAt_apply, Finsupp.zero_apply, Nat.add_zero]
  by_cases h : d = peer c
  · subst h; rw [peer_peer, if_pos ⟨rfl, rfl⟩, if_pos rfl]
  · rw [if_neg (fun ⟨h1, _⟩ => h (by rw [recv_eq_iff.mp h1, peer_peer])), if_neg h]

/-- Summed over the devices: a barrier cell is dealt one unit of credit, -/
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

/-- a receive cell the block's credit. -/
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (peer c) fun _ => N, if_pos (Finset.mem_univ _)]

/-- So a device's launch credit holds the two credit tokens its body starts from. -/
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ## The launch theorem's side conditions -/

/-- What the launch hands a device gives what its body starts from (nothing is kept aside). -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- With the two scratch buffers the region scopes, that is the invariant before the point; -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hp⟩, ⟨%g, Hr⟩⟩
  isplitl [Hs]; · iexact Hs
  isplitl [Hp]
  · iexists f; rw [pPts_eq]; iexact Hp
  · iexists g; rw [rPts_eq]; iexact Hr

/-- the invariant after the point hands back both scratch buffers and the two own semaphores at zero. -/
theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hp, Hr, HzS, HzV⟩
  isplitr; · iempintro
  isplitl [HzS HzV]
  · isplitl [HzS] <;> iassumption
  isplitl [Hp]
  · iexists (part m c); rw [← pPts_eq]; iexact Hp
  · iexists (landed m c); rw [← rPts_eq]; iexact Hr

/-- The staging cells' waits sit below everything a device may owe, before the point and after it. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What the run ends with: every window's array at the proof data's final contents. -/
def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- At the compiled mesh of four devices, from any memory with zero counters: if every device's body meets its
    obligation, every weakly fair execution of @main terminates with every window's array at its final contents. -/
theorem run_of_body (ρ : Dev nD → PrngReg)
    (hbody : ∀ c : Dev nD, BodyObligation (dats (F := F) m 0 c) (defs₀ (F := F)) 𝒱₀ () Set.univ) :
    θ_run defs (onTc (τ := τ) (main (F := F))) ⟨m, fun _ => 0, ρ⟩ (QC m) := by
  exact Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.Coll.run_of_body' depends on axioms: [propext, Classical.choice, Quot.sound] -/
#guard_msgs in #print axioms run_of_body

end Cert.KernelIdeal.Coll

end
-- ==== Proof.KernelIdeal.Final.lean ====
/-
  The arrays after the run: the argument array is what it was, the result array holds the body's result, and the
  staged input block is the argument array itself (the block is the whole array).
-/
import proofs.«900933_g7700000000000934_dist_max_ax1_xy_m1024_n512_v7x_xy2x2_bf16_1_alg».proof.Proof.KernelIdeal.Data

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The staged input is the device's argument array. -/
theorem xin_eq (c : Dev nD) : xin m c = m ((c : Thread nD τ).loc main_arg0) := by
  -- The window's block at the one grid point is the rectangle of the array's own sizes at block index 0, that is
  -- at offsets 0 · size = 0: the whole array, read as it stands.
  unfold xin
  exact Memref.read_access_unit_zero (Elt F) main_arg0 (funext fun a => Nat.zero_mul _) _ _

/-- The argument array after the run holds what it held. -/
theorem final_in (c : Dev nD) : (dats m 0 c).arrAt (0 : Fin 2) cfg0.N = m ((c : Thread nD τ).loc main_arg0) :=
  -- Window 0 is an input: no point writes it back, so after any number of points its array is as at entry.
  (dats m 0 c).arrAt_in (0 : Fin 2) rfl cfg0.N

/-- The one grid point is the last, and window 1 is an output: the point writes it back. -/
theorem flush_1 : (cfg0.win (1 : Fin 2)).flush t₀ = true := rfl

/-- What the proof data records for window 1 after the point is, by definition, the kernel's result. -/
theorem after_1 (c : Dev nD) : (dats m 0 c).after (1 : Fin 2) t₀ = outAt m c := by dsimp only [dats]

/-- Window 1's block is not cut at the array's end: its moved part is the block itself, whatever it holds
    (index for index the same function). -/
theorem cut_1 (X : (cfg0.win (1 : Fin 2)).block.Idx → Elt F (cfg0.win (1 : Fin 2)).elt) :
    (cfg0.win (1 : Fin 2)).cut (cfg0.grid.coords t₀) X = X := rfl

/-- The result array after the run holds the body's result. -/
theorem final_out (c : Dev nD) : (dats m 0 c).arrAt (1 : Fin 2) cfg0.N = outAt m c := by
  -- The grid has one point, and that point writes window 1 back: the array after it is the array at entry
  -- overwritten, on the block's rectangle, by what the body left in the staging buffer.
  have hN : (dats m 0 c).arrAt (1 : Fin 2) cfg0.N = (dats m 0 c).arrAt (1 : Fin 2) ((t₀ : Fin cfg0.N).val + 1) :=
    congrArg ((dats m 0 c).arrAt (1 : Fin 2)) cfg0_N
  rw [hN, Dat.arrAt_succ, if_pos flush_1]
  -- The block is the rectangle of the array's own sizes at offsets 0 · size = 0: the whole array, so the write
  -- replaces the contents by the payload,
  refine (Memref.write_access_unit_zero_univ (Elt F) main_v1 (funext fun a => Nat.zero_mul _) _ _ _).trans ?_
  -- and the payload is the moved part of what the body left: all of it, the kernel's result.
  show (cfg0.win (1 : Fin 2)).cut (cfg0.grid.coords t₀) ((dats m 0 c).after (1 : Fin 2) t₀) = outAt m c
  rw [after_1]
  exact cut_1 _

end Cert.KernelIdeal.Coll

end
-- ==== Proof.KernelIdeal.Run.lean ====
/-
  The run of @main on the four devices, with every array named: each device's result array ends holding the
  maximum of its own row maxima and its row partner's, as a column, and its argument array is unchanged.
-/
import proofs.«900933_g7700000000000934_dist_max_ax1_xy_m1024_n512_v7x_xy2x2_bf16_1_alg».proof.Proof.KernelIdeal.Oblig
import proofs.«900933_g7700000000000934_dist_max_ax1_xy_m1024_n512_v7x_xy2x2_bf16_1_alg».proof.Proof.KernelIdeal.Launch
import proofs.«900933_g7700000000000934_dist_max_ax1_xy_m1024_n512_v7x_xy2x2_bf16_1_alg».proof.Proof.KernelIdeal.Final

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Every weakly fair execution of @main terminates with every window's array at its final contents. -/
theorem run_main (ρ : Dev nD → PrngReg) : θ_run defs (onTc (τ := τ) (main (F := F))) ⟨m, fun _ => 0, ρ⟩ (QC m) :=
  run_of_body m ρ (body_obligation m)

/-- The same run with the arrays read: the result is `outAt m c` — a pure term of the devices' argument arrays —
    and the argument array is as launched. -/
theorem run_named (ρ : Dev nD → PrngReg) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  (θ_run defs _ _).mono (fun r h c => ⟨(h c (1 : Fin 2)).trans (final_out m c), (h c (0 : Fin 2)).trans (final_in m c)⟩) (run_main m ρ)

/-- info: 'Cert.KernelIdeal.Coll.run_named' depends on axioms: [propext, Classical.choice, Quot.sound] -/
#guard_msgs in #print axioms run_named

end Cert.KernelIdeal.Coll

end
-- ==== Proof.Value.lean ====
/-
  The value bridge at the ideal instance: what device `c` ends with — the elementwise maximum of its own row maxima
  and its row partner's, spread back to a column — is block `c / 2` of the reference's row maxima of the whole array.

  The road. A maximum-reduction from −∞ over an axis is the supremum of the family along that axis (the fold of `max`
  from the least element). The first payload at (a, b) is then the supremum of row 128·a + b of the device's block; the
  second payload at (r, 0) is the supremum over 128 lanes of a row that holds max(own, partner) at (r / 128, r % 128)
  in lane r % 128 and −∞ in every other lane, which is that one value. Device `c` holds columns
  [512·(c % 2), +512) of rows [1024·(c / 2), +1024), its partner the other 512 columns of the same rows; the larger of
  the two half-row suprema is the supremum of the whole row, which is what the reference computes at that row.
-/
import proofs.«900933_g7700000000000934_dist_max_ax1_xy_m1024_n512_v7x_xy2x2_bf16_1_alg».proof.Proof.Gen.KernelIdeal.Skeleton
import proofs.«900933_g7700000000000934_dist_max_ax1_xy_m1024_n512_v7x_xy2x2_bf16_1_alg».proof.Proof.Gen.ReferenceIdeal.Read
import proofs.«900933_g7700000000000934_dist_max_ax1_xy_m1024_n512_v7x_xy2x2_bf16_1_alg».proof.Proof.KernelIdeal.Peer
import Idealize.ShloMosaic.Lib.Layout
import Idealize.ShloMosaic.Lib.ValueIdx
import Idealize.ShloMosaic.Lib.Pipeline.Value
import Idealize.ShloMosaic.Lib.Affine
import Idealize.ShloMosaic.PureOps.Ideal.Laws

noncomputable section

namespace Cert.KernelIdeal.Bridge

section Pieces

open Idealize.ShloMosaic Idealize.ShloMosaic.ValueIdx
open Cert.KernelIdeal Cert.KernelIdeal.Gen
open Cert.KernelIdeal.Coll (peer)

/-! ## Suprema of finite families of extended reals -/

/-- The fold of `max` from the least element over all of `Fin n` is the supremum of the family. -/
theorem fold_max_bot {n : Nat} (f : Fin n → EReal) :
    (Finset.univ : Finset (Fin n)).fold max ⊥ f = Finset.univ.sup f := by
  apply le_antisymm
  · rw [Finset.fold_max_le]
    exact ⟨bot_le, fun x hx => Finset.le_sup hx⟩
  · apply Finset.sup_le
    intro x hx
    rw [Finset.le_fold_max]
    exact Or.inr ⟨x, hx, le_rfl⟩

/-- A family that holds `v` at one place and the least element elsewhere has supremum `v`. -/
theorem sup_oneHot {n : Nat} (l0 : Fin n) (v : EReal) :
    (Finset.univ.sup fun l : Fin n => if l = l0 then v else ⊥) = v := by
  apply le_antisymm
  · apply Finset.sup_le
    intro l _
    by_cases h : l = l0
    · rw [if_pos h]
    · rw [if_neg h]; exact bot_le
  · have h := Finset.le_sup (f := fun l : Fin n => if l = l0 then v else ⊥) (Finset.mem_univ l0)
    simp only [if_true] at h
    exact h

/-- The supremum over 1024 places is the larger of the suprema over its two halves of 512, taken in either order:
    every place of a half is a place of the whole, and every place of the whole lies in one of the halves. -/
theorem sup_halves (f : Fin 1024 → EReal) (q : Nat) (hq : q < 2) :
    max (Finset.univ.sup fun j : Fin 512 => f ⟨512 * q + j.val, by omega⟩)
        (Finset.univ.sup fun j : Fin 512 => f ⟨512 * (1 - q) + j.val, by omega⟩)
      = Finset.univ.sup f := by
  apply le_antisymm
  · apply max_le
    · exact Finset.sup_le fun j _ => Finset.le_sup (f := f) (Finset.mem_univ _)
    · exact Finset.sup_le fun j _ => Finset.le_sup (f := f) (Finset.mem_univ _)
  · apply Finset.sup_le
    intro j _
    by_cases hj : j.val / 512 = q
    · refine le_max_of_le_left ?_
      have e : j = ⟨512 * q + (⟨j.val % 512, Nat.mod_lt _ (by decide)⟩ : Fin 512).val, by omega⟩ :=
        Fin.ext (by show j.val = 512 * q + j.val % 512; omega)
      rw [e]
      exact Finset.le_sup (f := fun j : Fin 512 => f ⟨512 * q + j.val, by omega⟩) (Finset.mem_univ _)
    · refine le_max_of_le_right ?_
      have e : j = ⟨512 * (1 - q) + (⟨j.val % 512, Nat.mod_lt _ (by decide)⟩ : Fin 512).val, by omega⟩ :=
        Fin.ext (by show j.val = 512 * (1 - q) + j.val % 512; have := j.isLt; omega)
      rw [e]
      exact Finset.le_sup (f := fun j : Fin 512 => f ⟨512 * (1 - q) + j.val, by omega⟩) (Finset.mem_univ _)

/-! ## A maximum-reduction along the columns, from −∞ -/

/-- The word 0xFF800000 is −∞, the least extended real. -/
theorem negInf_eq_bot : Ideal.ofBits .f32 0xFF800000#32 = (⊥ : EReal) := by
  simp [Ideal.ofBits, Ideal.ieee]

/-- Row `r` of an [R, C] array with column `k` put back is the index (r, k). -/
theorem lift_row {R C : Nat} (h : (⟨2, ![R, C]⟩ : Shape).Reduces [1] ⟨1, ![R]⟩) (r : Fin R)
    (k : Fin ((⟨2, ![R, C]⟩ : Shape).size 1)) :
    h.lift (ix1 r) k = ix2 r (⟨k.val, k.isLt⟩ : Fin C) := by
  funext c; apply Fin.ext
  match c with
  | ⟨0, _⟩ => rfl
  | ⟨1, _⟩ => rfl

/-- A kernel's maximum-reduction from −∞ along the columns of an [R, C] array, at row `r`, is the supremum of that row. -/
theorem rowMax_apply {R C : Nat} (src : FVec Ideal ⟨2, ![R, C]⟩ .f32) (h : (⟨2, ![R, C]⟩ : Shape).Reduces [1] ⟨1, ![R]⟩)
    (hφ : FKind.Formats .f32) (hacc : (0xFF800000#32 : BitVec FTy.f32.bits) = FKind.maximumf.neutral .f32 hφ) (r : Fin R) :
    multiReduction (F := Ideal) .maximumf [1] ⟨1, ![R]⟩ src 0xFF800000#32 h hφ hacc (ix1 r)
      = Finset.univ.sup fun j : Fin C => src (ix2 r j) := by
  rw [Ideal.multiReduction_maximumf_single]
  have hf : (src ∘ h.lift (ix1 r)) = fun k : Fin C => src (ix2 r k) := funext fun k => congrArg src (lift_row h r k)
  refine Eq.trans ?_ (fold_max_bot fun k : Fin C => src (ix2 r k))
  rw [← hf]
  exact congrArg (fun z => Finset.fold max z (src ∘ h.lift (ix1 r)) (Finset.univ : Finset (Fin C))) negInf_eq_bot

/-- The host's reduce with a maximum body from −∞ along the columns of an [R, C] array, at row `r`, is the supremum
    of that row. -/
theorem hostRowMax_apply {R C : Nat} (x : FVec Ideal ⟨2, ![R, C]⟩ .f32) (h' : (⟨2, ![R, C]⟩ : Shape).ReducesTo [1] ⟨1, ![R]⟩)
    (h : (⟨2, ![R, C]⟩ : Shape).Reduces [1] ⟨1, ![R]⟩) (hu : 0 < (⟨0, ![]⟩ : Shape).numel) (r : Fin R) :
    Host.reduce FloatOps.maximumf x (constant (F := Ideal) (⟨0, ![]⟩ : Shape) .f32 0xFF800000#32) h' hu (ix1 r)
      = Finset.univ.sup fun j : Fin C => x (ix2 r j) := by
  rw [Host.reduce_eq_fold_single FloatOps.maximumf x _ h' h hu]
  have hf : (x ∘ h.lift (ix1 r)) = fun k : Fin C => x (ix2 r k) := funext fun k => congrArg x (lift_row h r k)
  refine Eq.trans ?_ (fold_max_bot fun k : Fin C => x (ix2 r k))
  rw [← hf]
  exact congrArg (fun z => Finset.fold max z (x ∘ h.lift (ix1 r)) (Finset.univ : Finset (Fin C))) negInf_eq_bot

/-! ## The first payload -/

/-- The first payload at (a, b): the supremum over the 512 columns of row 128·a + b of the block. -/
theorem pay2_apply (v : Vec Ideal S1024x512 .f32) (a : Fin 8) (b : Fin 128) :
    k0_pay2 (F := Ideal) v (ix2 a b)
      = Finset.univ.sup fun j : Fin 512 => v (ix2 (⟨128 * a.val + b.val, by omega⟩ : Fin 1024) j) := by
  unfold k0_pay2
  simp only [shapeCast_self]
  rw [shapeCast_apply _ _ (ix2 a b) (ix1 (⟨128 * a.val + b.val, by omega⟩ : Fin 1024))
    (by rw [Shape.rowMajor_val_one, Shape.rowMajor_val_two]; show 128 * a.val + b.val = a.val * 128 + b.val; omega)]
  exact rowMax_apply v _ _ _ _

/-! ## The integer mask -/

/-- The printed floor-mod chain on words: for a row number r below 1024 and a lane l below 128 the chain's last
    comparison is 1 exactly when l = r % 128. -/
theorem maskWord (r l : Nat) (hr : r < 1024) (hl : l < 128) :
    IntOp.cmpi .eq (BitVec.ofNat 32 l)
        (Scalar.select
          (IntOp.andi (IntOp.xori (IntOp.cmpi .slt (IntOp.remsi .vector (BitVec.ofNat 32 r) 128#32) 0#32) 0#1)
            (IntOp.cmpi .ne (IntOp.remsi .vector (BitVec.ofNat 32 r) 128#32) 0#32))
          (IntOp.addi (IntOp.remsi .vector (BitVec.ofNat 32 r) 128#32) 128#32)
          (IntOp.remsi .vector (BitVec.ofNat 32 r) 128#32))
      = if l = r % 128 then 1#1 else 0#1 := by
  have hm : IntOp.remsi .vector (BitVec.ofNat 32 r) 128#32 = BitVec.ofNat 32 (r % 128) := by
    apply BitVec.eq_of_toNat_eq
    have hrN : (BitVec.ofNat 32 r).toNat = r := by rw [BitVec.toNat_ofNat]; omega
    rw [IntOp.toNat_remsi .vector (by rw [hrN]; omega) 128 (by decide) (by decide), hrN, BitVec.toNat_ofNat]
    omega
  rw [hm]
  have hlt : IntOp.cmpi .slt (BitVec.ofNat 32 (r % 128)) 0#32 = 0#1 := by
    apply eq_zero_of_ne_one
    rw [IntOp.cmpi_slt, BitVec.toInt_eq_toNat_of_lt (by rw [BitVec.toNat_ofNat]; omega), BitVec.toNat_ofNat]
    show ¬ ((r % 128 % 2 ^ 32 : Nat) : Int) < 0
    omega
  rw [hlt]
  have hz : ∀ c : BitVec 1, IntOp.andi (IntOp.xori 0#1 0#1) c = 0#1 := by decide
  rw [hz, select_zero]
  by_cases h : l = r % 128
  · rw [if_pos h, IntOp.cmpi_eq, h]
  · rw [if_neg h]
    apply eq_zero_of_ne_one
    rw [IntOp.cmpi_eq]
    intro e
    have := congrArg BitVec.toNat e
    rw [BitVec.toNat_ofNat, BitVec.toNat_ofNat] at this
    omega

section WordsAtAnIndex
variable {s : Shape} {w : Nat}
theorem cmpi_at (p : CmpIPredicate) (x y : IVec s w) (i : s.Idx) : cmpi p x y i = IntOp.cmpi p (x i) (y i) := rfl
theorem xori_at (x y : IVec s w) (i : s.Idx) : xori x y i = IntOp.xori (x i) (y i) := rfl
theorem andi_at (x y : IVec s w) (i : s.Idx) : andi x y i = IntOp.andi (x i) (y i) := rfl
theorem addi_at (x y : IVec s w) (i : s.Idx) : addi x y i = IntOp.addi (x i) (y i) := rfl
theorem remsi_at (x y : IVec s w) (i : s.Idx) : remsi x y i = IntOp.remsi .vector (x i) (y i) := rfl
/-- A splat broadcast again to its own shape still reads the scalar. -/
theorem broadcastTo_splat_at {α : Type} {t : Shape} (x : α) (h : s.Broadcasts t) (i : t.Idx) :
    broadcastTo t (broadcast s x) h i = x := rfl
end WordsAtAnIndex

/-- The mask vector at (r, l): 1 exactly when the lane is the row number modulo 128. -/
theorem mask_apply (hi0 : S1024x128.Iotas .tc 32 [0]) (hi1 : S1024x128.Iotas .tc 32 [1]) (hb : S1024x128.Broadcasts S1024x128)
    (r : Fin 1024) (l : Fin 128) :
    cmpi CmpIPredicate.eq (iota Kind.tc S1024x128 32 [1] hi1)
        (select
          (andi
            (xori
              (cmpi CmpIPredicate.slt
                (remsi (iota Kind.tc S1024x128 32 [0] hi0)
                  (broadcast S1024x128 (Scalar.select (Scalar.cmpi CmpIPredicate.eq 128#32 0#32) 1#32 128#32)))
                (broadcast S1024x128 0#32))
              (broadcastTo S1024x128
                (broadcast S1024x128
                  (Scalar.cmpi CmpIPredicate.slt
                    (Scalar.select (Scalar.cmpi CmpIPredicate.eq 128#32 0#32) 1#32 128#32) 0#32))
                hb))
            (cmpi CmpIPredicate.ne
              (remsi (iota Kind.tc S1024x128 32 [0] hi0)
                (broadcast S1024x128 (Scalar.select (Scalar.cmpi CmpIPredicate.eq 128#32 0#32) 1#32 128#32)))
              (broadcast S1024x128 0#32)))
          (addi
            (remsi (iota Kind.tc S1024x128 32 [0] hi0)
              (broadcast S1024x128 (Scalar.select (Scalar.cmpi CmpIPredicate.eq 128#32 0#32) 1#32 128#32)))
            (broadcast S1024x128 (Scalar.select (Scalar.cmpi CmpIPredicate.eq 128#32 0#32) 1#32 128#32)))
          (remsi (iota Kind.tc S1024x128 32 [0] hi0)
            (broadcast S1024x128 (Scalar.select (Scalar.cmpi CmpIPredicate.eq 128#32 0#32) 1#32 128#32))))
        (ix2 r l)
      = if l.val = r.val % 128 then 1#1 else 0#1 := by
  have e0 : iota .tc S1024x128 32 [0] hi0 (ix2 r l) = BitVec.ofNat 32 r.val := iota_single_apply _ _ _ _ _ _
  have e1 : iota .tc S1024x128 32 [1] hi1 (ix2 r l) = BitVec.ofNat 32 l.val := iota_single_apply _ _ _ _ _ _
  have ed : Scalar.select (Scalar.cmpi .eq 128#32 0#32) 1#32 128#32 = 128#32 := by decide
  have es : Scalar.cmpi .slt 128#32 0#32 = 0#1 := by decide
  simp only [cmpi_at, select_apply, andi_at, xori_at, addi_at, remsi_at, broadcast_apply, broadcastTo_splat_at, e0, e1, ed, es]
  exact maskWord r.val l.val r.isLt l.isLt

/-! ## The spread of an [8, 128] vector to [1024, 128] -/

/-- The [8,128] vector cast to [8,1,128], broadcast to [8,128,128] and cast to [1024,128], at (r, l), is the vector
    at (r / 128, l). -/
theorem spread_apply (u : FVec Ideal S8x128 .f32) (h1 : S8x128.ShapeCasts S8x1x128) (h2 : S8x1x128.ShapeCasts S8x1x128)
    (h3 : S8x1x128.Broadcasts S8x128x128) (h4 : S8x128x128.ShapeCasts S1024x128) (r : Fin 1024) (l : Fin 128) :
    shapeCast S1024x128 (broadcastTo S8x128x128 (shapeCast S8x1x128 (shapeCast S8x1x128 u h1) h2) h3) h4 (ix2 r l)
      = u (ix2 (⟨r.val / 128, by omega⟩ : Fin 8) l) := by
  rw [shapeCast_self]
  rw [shapeCast_apply _ h4 (ix2 r l) (ix3 (⟨r.val / 128, by omega⟩ : Fin 8) (⟨r.val % 128, Nat.mod_lt _ (by decide)⟩ : Fin 128) l)
    (by rw [Shape.rowMajor_val_three, Shape.rowMajor_val_two]; show ((r.val / 128) * 128 + r.val % 128) * 128 + l.val = r.val * 128 + l.val; omega)]
  rw [broadcastTo_apply _ h3 _ (ix3 (⟨r.val / 128, by omega⟩ : Fin 8) (0 : Fin 1) l) (fun a => match a with
    | ⟨0, _⟩ => rfl | ⟨1, _⟩ => rfl | ⟨2, _⟩ => rfl)]
  rw [shapeCast_apply _ h1 _ (ix2 (⟨r.val / 128, by omega⟩ : Fin 8) l)
    (by rw [Shape.rowMajor_val_two, Shape.rowMajor_val_three]; show (r.val / 128) * 128 + l.val = ((r.val / 128) * 1 + 0) * 128 + l.val; omega)]

/-! ## The second payload -/

/-- The second payload at (r, 0): the larger of its two operands at (r / 128, r % 128) — the supremum over the 128 lanes of
    a row that holds that value at lane r % 128 and −∞ elsewhere. -/
theorem pay1_apply (v27 v28 : Vec Ideal S8x128 .f32) (r : Fin 1024) :
    k0_pay1 (F := Ideal) v27 v28 (ix2 r (0 : Fin 1))
      = max (v27 (ix2 (⟨r.val / 128, by omega⟩ : Fin 8) (⟨r.val % 128, Nat.mod_lt _ (by decide)⟩ : Fin 128)))
            (v28 (ix2 (⟨r.val / 128, by omega⟩ : Fin 8) (⟨r.val % 128, Nat.mod_lt _ (by decide)⟩ : Fin 128))) := by
  unfold k0_pay1
  simp only []
  rw [shapeCast_apply _ _ (ix2 r (0 : Fin 1)) (ix1 r)
    (by rw [Shape.rowMajor_val_one, Shape.rowMajor_val_two]; show r.val = r.val * 1 + 0; omega)]
  refine (rowMax_apply _ _ _ _ r).trans ?_
  refine Eq.trans ?_ (sup_oneHot (⟨r.val % 128, Nat.mod_lt _ (by decide)⟩ : Fin 128) _)
  refine congrArg (Finset.sup Finset.univ) (funext fun l => ?_)
  rw [select_apply, mask_apply _ _ _ r l, spread_apply, maximumf_apply, broadcast_apply]
  by_cases h : l = (⟨r.val % 128, Nat.mod_lt _ (by decide)⟩ : Fin 128)
  · rw [if_pos h, if_pos (by rw [h]), select_one, h]
  · rw [if_neg h, if_neg (fun e => h (Fin.ext e)), select_zero]
    exact negInf_eq_bot

/-! ## Both payloads together -/

/-- The body's result at (r, 0) from two blocks: the larger of the two blocks' suprema of row r. -/
theorem kernel_apply (vc vp : Vec Ideal S1024x512 .f32) (r : Fin 1024) :
    k0_pay1 (F := Ideal) (k0_pay2 (F := Ideal) vc) (k0_pay2 (F := Ideal) vp) (ix2 r (0 : Fin 1))
      = max (Finset.univ.sup fun j : Fin 512 => vc (ix2 r j)) (Finset.univ.sup fun j : Fin 512 => vp (ix2 r j)) := by
  rw [pay1_apply, pay2_apply, pay2_apply]
  have e : (⟨128 * (⟨r.val / 128, by omega⟩ : Fin 8).val + (⟨r.val % 128, Nat.mod_lt _ (by decide)⟩ : Fin 128).val, by omega⟩ : Fin 1024) = r :=
    Fin.ext (by show 128 * (r.val / 128) + r.val % 128 = r.val; omega)
  rw [e]

/-! ## The reference -/

/-- The reference's result at (R, 0): the supremum over the 1024 columns of row R of the whole array. -/
theorem ref_apply (X : (⟨Cert.ReferenceIdeal.S2048x1024, .f32⟩ : BufTy).Contents (Elt Ideal)) (R : Fin 2048) :
    Cert.ReferenceIdeal.Read.val_main_v1 (F := Ideal) X (ix2 R (0 : Fin 1))
      = Finset.univ.sup fun j : Fin 1024 => X (ix2 R j) := by
  rw [Cert.ReferenceIdeal.Read.val_main_v1_apply]
  have hi : Cert.ReferenceIdeal.Read.idx_main_v1 (ix2 R (0 : Fin 1)) = ix1 R := by
    funext a; match a with | ⟨0, _⟩ => rfl
  rw [hi]
  unfold Cert.ReferenceIdeal.Read.val_main_v0 Cert.ReferenceIdeal.Read.val_main_cst
  exact hostRowMax_apply X _ (by decide) _ R

/-! ## Where the blocks lie -/

/-- On the 2 × 2 mesh device `d` holds block (d / 2, d % 2) of an array cut along both dimensions, and block (d / 2, 0)
    of one cut along the rows only. -/
theorem mesh_coords (d : Dev nD) :
    ((Layout.meshBlock [2, 2] ![[0], [1]] d) 0).val = d.val / 2 ∧ ((Layout.meshBlock [2, 2] ![[0], [1]] d) 1).val = d.val % 2
      ∧ ((Layout.meshBlock [2, 2] ![[0], []] d) 0).val = d.val / 2 ∧ ((Layout.meshBlock [2, 2] ![[0], []] d) 1).val = 0 := by
  revert d; decide

/-- Device `d`'s block of the whole array at (r, j), for `d` in mesh row `q0` and mesh column `q1`: the array at
    row 1024·q0 + r, column 512·q1 + j. -/
theorem inBlock_apply (X : (⟨Cert.ReferenceIdeal.S2048x1024, .f32⟩ : BufTy).Contents (Elt Ideal)) (d : Dev nD) (q0 q1 : Nat)
    (h0 : d.val / 2 = q0) (h1 : d.val % 2 = q1) (hq0 : q0 < 2) (hq1 : q1 < 2) (r : Fin 1024) (j : Fin 512) :
    (Layout.blockN ⟨2, ![1024, 512]⟩ ⟨2, ![2048, 1024]⟩ (Layout.meshBlock [2, 2] ![[0], [1]] d) X) (ix2 r j)
      = X (ix2 (⟨1024 * q0 + r.val, by omega⟩ : Fin 2048) (⟨512 * q1 + j.val, by omega⟩ : Fin 1024)) := by
  rw [Layout.blockN_apply]
  refine congrArg X (funext fun b => Fin.ext ?_)
  have hm := mesh_coords d
  match b with
  | ⟨0, _⟩ =>
    show ((Layout.meshBlock [2, 2] ![[0], [1]] d) 0).val * 1024 + r.val = 1024 * q0 + r.val
    rw [hm.1, h0]; omega
  | ⟨1, _⟩ =>
    show ((Layout.meshBlock [2, 2] ![[0], [1]] d) 1).val * 512 + j.val = 512 * q1 + j.val
    rw [hm.2.1, h1]; omega

/-- Device `d`'s block of a [2048, 1] array cut along the rows, at (r, 0): the array at row 1024·(d / 2) + r. -/
theorem outBlock_apply {α : Type} (Y : (⟨2, ![2048, 1]⟩ : Shape).Idx → α) (d : Dev nD) (q0 : Nat) (h0 : d.val / 2 = q0) (hq0 : q0 < 2)
    (r : Fin 1024) :
    (Layout.blockN ⟨2, ![1024, 1]⟩ ⟨2, ![2048, 1]⟩ (Layout.meshBlock [2, 2] ![[0], []] d) Y) (ix2 r (0 : Fin 1))
      = Y (ix2 (⟨1024 * q0 + r.val, by omega⟩ : Fin 2048) (0 : Fin 1)) := by
  rw [Layout.blockN_apply]
  refine congrArg Y (funext fun b => Fin.ext ?_)
  have hm := mesh_coords d
  match b with
  | ⟨0, _⟩ =>
    show ((Layout.meshBlock [2, 2] ![[0], []] d) 0).val * 1024 + r.val = 1024 * q0 + r.val
    rw [hm.2.2.1, h0]; omega
  | ⟨1, _⟩ =>
    show ((Layout.meshBlock [2, 2] ![[0], []] d) 1).val * 1 + 0 = 0
    rw [hm.2.2.2]

/-! ## The bridge -/

/-- The two sides agree at every index (r, 0): the larger of the suprema of the two half-rows is the supremum of the row. -/
theorem result_block_all (X : (⟨Cert.ReferenceIdeal.S2048x1024, .f32⟩ : BufTy).Contents (Elt Ideal)) (c : Dev Cert.KernelIdeal.nD) :
    Cert.KernelIdeal.Gen.k0_pay1 (F := Ideal)
        (Cert.KernelIdeal.Gen.k0_pay2 (F := Ideal)
          (Layout.blockN ⟨2, ![1024, 512]⟩ ⟨2, ![2048, 1024]⟩ (Layout.meshBlock [2, 2] ![[0], [1]] c) X))
        (Cert.KernelIdeal.Gen.k0_pay2 (F := Ideal)
          (Layout.blockN ⟨2, ![1024, 512]⟩ ⟨2, ![2048, 1024]⟩ (Layout.meshBlock [2, 2] ![[0], [1]] (peer c)) X))
      = Layout.blockN ⟨2, ![1024, 1]⟩ ⟨2, ![2048, 1]⟩ (Layout.meshBlock [2, 2] ![[0], []] c)
          (Cert.ReferenceIdeal.Read.val_main_v1 (F := Ideal) X) := by
  funext i
  obtain ⟨r, z, rfl⟩ : ∃ (r : Fin 1024) (z : Fin 1), i = ix2 r z := ⟨i 0, i 1, eq_ix2 i⟩
  obtain rfl : z = 0 := Subsingleton.elim _ _
  have hq : c.val % 2 < 2 := Nat.mod_lt _ (by decide)
  have hp : c.val / 2 < 2 := by
    have h4 : c.val < 4 := c.isLt
    omega
  rw [kernel_apply, outBlock_apply _ c (c.val / 2) rfl hp r, ref_apply]
  simp only [inBlock_apply X c (c.val / 2) (c.val % 2) rfl rfl hp hq,
    inBlock_apply X (peer c) (c.val / 2) (1 - c.val % 2) (Coll.peer_row c) (Coll.peer_col c) hp (by omega)]
  exact sup_halves (fun j : Fin 1024 => X (ix2 (⟨1024 * (c.val / 2) + r.val, by omega⟩ : Fin 2048) j)) (c.val % 2) hq

end Pieces

open Idealize.ShloMosaic
open Cert.KernelIdeal.Coll (peer)

/-- Device `c`'s result, as the body computes it from its own block and its partner's block of the whole array `X`,
    is its block of the reference's result on `X`. -/
theorem result_block (X : (⟨Cert.ReferenceIdeal.S2048x1024, .f32⟩ : BufTy).Contents (Elt Ideal)) (c : Dev Cert.KernelIdeal.nD) :
    Cert.KernelIdeal.Gen.k0_pay1 (F := Ideal)
        (Cert.KernelIdeal.Gen.k0_pay2 (F := Ideal)
          (Layout.blockN ⟨2, ![1024, 512]⟩ ⟨2, ![2048, 1024]⟩ (Layout.meshBlock [2, 2] ![[0], [1]] c) X))
        (Cert.KernelIdeal.Gen.k0_pay2 (F := Ideal)
          (Layout.blockN ⟨2, ![1024, 512]⟩ ⟨2, ![2048, 1024]⟩ (Layout.meshBlock [2, 2] ![[0], [1]] (peer c)) X))
      = Layout.blockN ⟨2, ![1024, 1]⟩ ⟨2, ![2048, 1]⟩ (Layout.meshBlock [2, 2] ![[0], []] c)
          (Cert.ReferenceIdeal.Read.val_main_v1 (F := Ideal) X) := by
  exact result_block_all X c

end Cert.KernelIdeal.Bridge

end
-- ==== Proof.lean ====
/-
  The proof of `Cert.Claim`: a row maximum over 1024 columns computed by two devices, each over its 512.

  Four devices on a 2 × 2 mesh hold the blocks of a 2048 × 1024 array: device (i, j) rows [1024 i, 1024 i + 1024) and
  columns [512 j, 512 j + 512). Each takes the maxima of its block's rows over its 512 columns, copies them into the
  landing buffer of its row partner (i, 1 - j) — after a handshake on the barrier semaphore that says the partner is
  inside the kernel —, waits for the partner's maxima to land, and stores the elementwise maximum of the two: the
  maxima of its rows over all 1024 columns, which is its block (rows [1024 i, +1024)) of the reference's row maxima.

  The three frames and the equivalence all come from ONE run per program (Proof/Kernel/Run.lean at the word level,
  Proof/KernelIdeal/Run.lean at the ideal instance — the same text), in which each device's result array is named as
  a pure term `outAt m c` of the devices' argument arrays; the protocol (Sched), the stepped body (Body) and the launch
  (Launch) make that run. At the ideal instance the term is joined to the reference's (Proof/Value.lean): a maximum over
  a row is the maximum of the maxima over its two halves, in any order, with -∞ neutral — no finiteness is used.
-/
import proofs.«900933_g7700000000000934_dist_max_ax1_xy_m1024_n512_v7x_xy2x2_bf16_1_alg».proof.Defs
import proofs.«900933_g7700000000000934_dist_max_ax1_xy_m1024_n512_v7x_xy2x2_bf16_1_alg».proof.Proof.Gen.Kernel
import proofs.«900933_g7700000000000934_dist_max_ax1_xy_m1024_n512_v7x_xy2x2_bf16_1_alg».proof.Proof.Gen.KernelIdeal
import proofs.«900933_g7700000000000934_dist_max_ax1_xy_m1024_n512_v7x_xy2x2_bf16_1_alg».proof.Proof.Gen.ReferenceIdeal
import proofs.«900933_g7700000000000934_dist_max_ax1_xy_m1024_n512_v7x_xy2x2_bf16_1_alg».proof.Proof.Gen.ReferenceIdeal.Run
import proofs.«900933_g7700000000000934_dist_max_ax1_xy_m1024_n512_v7x_xy2x2_bf16_1_alg».proof.Proof.Gen.ReferenceIdeal.Read
import proofs.«900933_g7700000000000934_dist_max_ax1_xy_m1024_n512_v7x_xy2x2_bf16_1_alg».proof.Proof.Gen.Pre_finite_inputs_Kernel
import proofs.«900933_g7700000000000934_dist_max_ax1_xy_m1024_n512_v7x_xy2x2_bf16_1_alg».proof.Proof.Gen.Pre_finite_inputs_ReferenceIdeal
import proofs.«900933_g7700000000000934_dist_max_ax1_xy_m1024_n512_v7x_xy2x2_bf16_1_alg».proof.Proof.Kernel.Run
import proofs.«900933_g7700000000000934_dist_max_ax1_xy_m1024_n512_v7x_xy2x2_bf16_1_alg».proof.Proof.KernelIdeal.Run
import proofs.«900933_g7700000000000934_dist_max_ax1_xy_m1024_n512_v7x_xy2x2_bf16_1_alg».proof.Proof.Value
import Idealize.ShloMosaic.Adequacy
import Idealize.ShloMosaic.Init

noncomputable section

namespace Cert.Proof

open Idealize.ShloMosaic Idealize.SL.Sem

/-- The word-level program runs and leaves its argument arrays as they were: its named run with the result dropped. -/
theorem frame_k : Cert.frame_Kernel := fun m ρ _ =>
  (θ_run (Cert.Kernel.defs (F := Bits)) _ _).mono (fun _ h c => (h c).2) (Cert.Kernel.Coll.run_named (F := Bits) m ρ)

/-- The idealized program likewise. -/
theorem frame_ki : Cert.frame_KernelIdeal := fun m ρ _ =>
  (θ_run (Cert.KernelIdeal.defs (F := Ideal)) _ _).mono (fun _ h c => (h c).2) (Cert.KernelIdeal.Coll.run_named (F := Ideal) m ρ)

/-- The reference runs: its generated run with the result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- The ideal pass rewrote nothing. -/
theorem preserves : Cert.preserves_Kernel_KernelIdeal := trivial

/-- At the ideal instance, from device memories holding their blocks of the reference's array: every device's result
    ends as its block of the reference's row maxima. -/
theorem algebraic : Cert.algebraic_KernelIdeal_ReferenceIdeal := by
  intro m ρ m' ρ' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun r h c => ⟨(h c).1.trans ?_, (h c).2⟩)
      (Cert.KernelIdeal.Coll.run_named (F := Ideal) m ρ)
    -- the body's term over the two devices' blocks is the block of the reference's term
    unfold Cert.KernelIdeal.Coll.outAt Cert.KernelIdeal.Coll.part
    rw [Cert.KernelIdeal.Coll.xin_eq, Cert.KernelIdeal.Coll.xin_eq, hagree c, hagree (Cert.KernelIdeal.Coll.peer c)]
    exact Cert.KernelIdeal.Bridge.result_block _ c
  · exact (θ_run (Cert.ReferenceIdeal.defs (F := Ideal)) _ _).mono
      (fun r h => ⟨(h 0).1.trans (Cert.ReferenceIdeal.Read.val_main_v1_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
